-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S2x16000000 : Shape := ⟨2, ![2, 16000000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x16 : Shape := ⟨2, ![32, 16]⟩
abbrev S16x3 : Shape := ⟨2, ![16, 3]⟩
abbrev S3 : Shape := ⟨1, ![3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x16 : S_.BroadcastsInDim S32x16 (![] : Fin 0 → Fin S32x16.rank)
  reducesTo_S32x16_S_d0_1 : S32x16.ReducesTo [0, 1] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S16x3 .f32) (main_arg13 : FVec F S3 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x3 .f32 := Host.absf main_arg12
  let main_cst_20 : FVec F S_ .f32 := constant S_ .f32 0x7F800000#32
  let main_v55 : FVec F S16x3 .f32 := broadcastInDim S16x3 ![] bcast_S_S16x3 main_cst_20
  let main_v56 : IVec S16x3 1 := cmpf .olt main_v54 main_v55
  let main_c_21 : IVec S_ 1 := constantI S_ 1 1#1
  let main_v57 : IVec S_ 1 := (fun x v => Host.reduce IntOp.andi x v reducesTo_S16x3_S_d0_1 h_S_) main_v56 main_c_21
  let main_v58 : IVec S_ 1 := andi main_v53 main_v57
  let main_v59 : FVec F S3 .f32 := Host.absf main_arg13
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg8 : FVec F S64x32 .f32) (main_arg9 : FVec F S32 .f32) (main_arg10 : FVec F S32x16 .f32) (main_arg11 : FVec F S16 .f32) (main_arg12 : FVec F S16x3 .f32) (main_arg13 : FVec F S3 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_v48 main_v49 main_v50

def fn_part1 {F : FTy → Type} [FloatOps F] (main_arg5 : FVec F S32 .f32) (main_arg6 : FVec F S32x64 .f32) (main_arg7 : FVec F S64 .f32) (main_arg8 : FVec F S64x32 .f32) (main_arg9 : FVec F S32 .f32) (main_arg10 : FVec F S32x16 .f32) (main_arg11 : FVec F S16 .f32) (main_arg12 : FVec F S16x3 .f32) (main_arg13 : FVec F S3 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S1000000x3 .f32) (main_arg1 : IVec S2x16000000 32) (main_arg2 : FVec F S3x16 .f32) (main_arg3 : FVec F S16 .f32) (main_arg4 : FVec F S16x32 .f32) (main_arg5 : FVec F S32 .f32) (main_arg6 : FVec F S32x64 .f32) (main_arg7 : FVec F S64 .f32) (main_arg8 : FVec F S64x32 .f32) (main_arg9 : FVec F S32 .f32) (main_arg10 : FVec F S32x16 .f32) (main_arg11 : FVec F S16 .f32) (main_arg12 : FVec F S16x3 .f32) (main_arg13 : FVec F S3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_arg10 main_arg11 main_arg12 main_arg13 main_v13 main_v16
-- ==== Kernel.lean ====
abbrev S1000000x3 : Shape := ⟨2, ![1000000, 3]⟩
abbrev S2x16000000 : Shape := ⟨2, ![2, 16000000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x16 : Shape := ⟨2, ![32, 16]⟩
abbrev S16x3 : Shape := ⟨2, ![16, 3]⟩
abbrev S3 : Shape := ⟨1, ![3]⟩
abbrev S3x1000000 : Shape := ⟨2, ![3, 1000000]⟩
abbrev S16x1 : Shape := ⟨2, ![16, 1]⟩
abbrev S32x1 : Shape := ⟨2, ![32, 1]⟩
abbrev S64x1 : Shape := ⟨2, ![64, 1]⟩
abbrev S3x1 : Shape := ⟨2, ![3, 1]⟩
abbrev S3x32768 : Shape := ⟨2, ![3, 32768]⟩
abbrev S16x32768 : Shape := ⟨2, ![16, 32768]⟩
abbrev S32x32768 : Shape := ⟨2, ![32, 32768]⟩
abbrev S64x32768 : Shape := ⟨2, ![64, 32768]⟩

abbrev nBuf : Space → Nat
  | .hbm => 35
  | .vmem => 16
  | .smem => 0
  | _ => 0

abbrev bufTy : (tb : Table) → Fin (tcTables nBuf tb) → BufTy
  | .hbm, ⟨0, _⟩ => ⟨S1000000x3, .f32⟩
  | .hbm, ⟨1, _⟩ => ⟨S2x16000000, .i32⟩
  | .hbm, ⟨2, _⟩ => ⟨S3x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S16x3, .f32⟩
  | .hbm, ⟨13, _⟩ => ⟨S3, .f32⟩
  | .hbm, ⟨14, _⟩ => ⟨S3x1000000, .f32⟩
  | .hbm, ⟨15, _⟩ => ⟨S16x3, .f32⟩
  | .hbm, ⟨16, _⟩ => ⟨S16x3, .bf16⟩
  | .hbm, ⟨17, _⟩ => ⟨S32x16, .f32⟩
  | .hbm, ⟨18, _⟩ => ⟨S32x16, .bf16⟩
  | .hbm, ⟨19, _⟩ => ⟨S64x32, .f32⟩
  | .hbm, ⟨20, _⟩ => ⟨S64x32, .bf16⟩
  | .hbm, ⟨21, _⟩ => ⟨S32x64, .f32⟩
  | .hbm, ⟨22, _⟩ => ⟨S32x64, .bf16⟩
  | .hbm, ⟨23, _⟩ => ⟨S16x32, .f32⟩
  | .hbm, ⟨24, _⟩ => ⟨S16x32, .bf16⟩
  | .hbm, ⟨25, _⟩ => ⟨S3x16, .f32⟩
  | .hbm, ⟨26, _⟩ => ⟨S3x16, .bf16⟩
  | .hbm, ⟨27, _⟩ => ⟨S16x1, .f32⟩
  | .hbm, ⟨28, _⟩ => ⟨S32x1, .f32⟩
  | .hbm, ⟨29, _⟩ => ⟨S64x1, .f32⟩
  | .hbm, ⟨30, _⟩ => ⟨S32x1, .f32⟩
  | .hbm, ⟨31, _⟩ => ⟨S16x1, .f32⟩
  | .hbm, ⟨32, _⟩ => ⟨S3x1, .f32⟩
  | .hbm, ⟨33, _⟩ => ⟨S3x1000000, .f32⟩
  | .hbm, ⟨34, _⟩ => ⟨S1000000x3, .f32⟩
  | .local _ .vmem, ⟨0, _⟩ => ⟨S3x32768, .f32⟩
  | .local _ .vmem, ⟨1, _⟩ => ⟨S3x32768, .f32⟩
  | .local _ .vmem, ⟨2, _⟩ => ⟨S16x3, .bf16⟩
  | .local _ .vmem, ⟨3, _⟩ => ⟨S16x1, .f32⟩
  | .local _ .vmem, ⟨4, _⟩ => ⟨S32x16, .bf16⟩
  | .local _ .vmem, ⟨5, _⟩ => ⟨S32x1, .f32⟩
  | .local _ .vmem, ⟨6, _⟩ => ⟨S64x32, .bf16⟩
  | .local _ .vmem, ⟨7, _⟩ => ⟨S64x1, .f32⟩
  | .local _ .vmem, ⟨8, _⟩ => ⟨S32x64, .bf16⟩
  | .local _ .vmem, ⟨9, _⟩ => ⟨S32x1, .f32⟩
  | .local _ .vmem, ⟨10, _⟩ => ⟨S16x32, .bf16⟩
  | .local _ .vmem, ⟨11, _⟩ => ⟨S16x1, .f32⟩
  | .local _ .vmem, ⟨12, _⟩ => ⟨S3x16, .bf16⟩
  | .local _ .vmem, ⟨13, _⟩ => ⟨S3x1, .f32⟩
  | .local _ .vmem, ⟨14, _⟩ => ⟨S3x32768, .f32⟩
  | .local _ .vmem, ⟨15, _⟩ => ⟨S3x32768, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3x32768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S1000000x3_S3x1000000_1_0 : S1000000x3.Transposes [1, 0] S3x1000000
  transposes_S3x16_S16x3_1_0 : S3x16.Transposes [1, 0] S16x3
  bitsLt_bf16_f32 : FTy.bits .bf16 < FTy.bits .f32
  transposes_S16x32_S32x16_1_0 : S16x32.Transposes [1, 0] S32x16
  transposes_S32x64_S64x32_1_0 : S32x64.Transposes [1, 0] S64x32
  transposes_S64x32_S32x64_1_0 : S64x32.Transposes [1, 0] S32x64
  transposes_S32x16_S16x32_1_0 : S32x16.Transposes [1, 0] S16x32
  transposes_S16x3_S3x16_1_0 : S16x3.Transposes [1, 0] S3x16
  shapeCasts_S16_S16x1 : S16.ShapeCasts S16x1
  shapeCasts_S32_S32x1 : S32.ShapeCasts S32x1
  shapeCasts_S64_S64x1 : S64.ShapeCasts S64x1
  shapeCasts_S3_S3x1 : S3.ShapeCasts S3x1
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x32768 : S16x1.Broadcasts S16x32768
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x32768 : S32x1.Broadcasts S32x32768
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32768 : S64x1.Broadcasts S64x32768
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S3x16_S3x16_0_0 : ∀ a, (![0, 0] : Fin 2 → Nat) a + S3x16.size a ≤ S3x16.size a
  h_S3x16 : 0 < S3x16.numel
  shapeCasts_S3x16_S3x16 : S3x16.ShapeCasts S3x16
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x32768 : S3x1.Broadcasts S3x32768
  transposes_S3x1000000_S1000000x3_1_0 : S3x1000000.Transposes [1, 0] S1000000x3
  dot_S16x3_S3x32768_S16x32768_1_0_0_1_n_n_wf : DotDims.WF S16x3 S3x32768 S16x32768 [1] [0] [0] [1] [] []
  dot_S32x16_S16x32768_S32x32768_1_0_0_1_n_n_wf : DotDims.WF S32x16 S16x32768 S32x32768 [1] [0] [0] [1] [] []
  dot_S64x32_S32x32768_S64x32768_1_0_0_1_n_n_wf : DotDims.WF S64x32 S32x32768 S64x32768 [1] [0] [0] [1] [] []
  dot_S32x64_S64x32768_S32x32768_1_0_0_1_n_n_wf : DotDims.WF S32x64 S64x32768 S32x32768 [1] [0] [0] [1] [] []
  dot_S16x32_S32x32768_S16x32768_1_0_0_1_n_n_wf : DotDims.WF S16x32 S32x32768 S16x32768 [1] [0] [0] [1] [] []
  dot_S3x16_S16x32768_S3x32768_1_0_0_1_n_n_wf : DotDims.WF S3x16 S16x32768 S3x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3x32768.size a < S3x1000000.size a
  hwx0_0 : ∀ i : grid0.Coords, EltTy.bits .f32 = 32 ∨ (Rect.unit (s := S3x1000000) (fun a => cc0_transform_0 i a * S3x32768.size a) (fun a => (Pipeline.Clip.of (cc0_transform_0 i a) (S3x32768.size a) (S3x1000000.size a)).extent (S3x32768.size a)) fun a => Pipeline.Clip.inb (Pipeline.Clip.ok_of (hstart0_0 i a))).WholeWords (EltTy.packing .f32)
  hwxs0_0 : ∀ i : grid0.Coords, EltTy.bits .f32 = 32 ∨ (Rect.unit (s := S3x32768) (fun _ => 0) (fun a => (Pipeline.Clip.of (cc0_transform_0 i a) (S3x32768.size a) (S3x1000000.size a)).extent (S3x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x3.size a ≤ S16x3.size a
  hwx0_1 : ∀ i : grid0.Coords, EltTy.bits .bf16 = 32 ∨ (Rect.block (s := S16x3) S16x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .bf16 = 32 ∨ (Rect.block (s := S32x16) S32x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .bf16 = 32 ∨ (Rect.block (s := S64x32) S64x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .bf16 = 32 ∨ (Rect.block (s := S32x64) S32x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x32.size a ≤ S16x32.size a
  hwx0_9 : ∀ i : grid0.Coords, EltTy.bits .bf16 = 32 ∨ (Rect.block (s := S16x32) S16x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x16.size a ≤ S3x16.size a
  hwx0_11 : ∀ i : grid0.Coords, EltTy.bits .bf16 = 32 ∨ (Rect.block (s := S3x16) S3x16.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x1.size a ≤ S3x1.size a
  hwx0_12 : ∀ i : grid0.Coords, EltTy.bits .f32 = 32 ∨ (Rect.block (s := S3x1) S3x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hstart0_13 : ∀ (i : grid0.Coords) a, cc0_transform_13 i a * S3x32768.size a < S3x1000000.size a
  hwx0_13 : ∀ i : grid0.Coords, EltTy.bits .f32 = 32 ∨ (Rect.unit (s := S3x1000000) (fun a => cc0_transform_13 i a * S3x32768.size a) (fun a => (Pipeline.Clip.of (cc0_transform_13 i a) (S3x32768.size a) (S3x1000000.size a)).extent (S3x32768.size a)) fun a => Pipeline.Clip.inb (Pipeline.Clip.ok_of (hstart0_13 i a))).WholeWords (EltTy.packing .f32)
  hwxs0_13 : ∀ i : grid0.Coords, EltTy.bits .f32 = 32 ∨ (Rect.unit (s := S3x32768) (fun _ => 0) (fun a => (Pipeline.Clip.of (cc0_transform_13 i a) (S3x32768.size a) (S3x1000000.size a)).extent (S3x32768.size a)) fun a => (Nat.zero_add _).trans_le (Pipeline.Clip.extent_le (Pipeline.Clip.ok_of (hstart0_13 i a)))).WholeWords (EltTy.packing .f32)

variable [Facts₀]

def dot_S16x3_S3x32768_S16x32768_1_0_0_1_n_n : DotDims S16x3 S3x32768 S16x32768 where
  lhsContracting := [1]
  rhsContracting := [0]
  lhsNonContracting := [0]
  rhsNonContracting := [1]
  lhsBatch := []
  rhsBatch := []
  wf := dot_S16x3_S3x32768_S16x32768_1_0_0_1_n_n_wf
def dot_S32x16_S16x32768_S32x32768_1_0_0_1_n_n : DotDims S32x16 S16x32768 S32x32768 where
  lhsContracting := [1]
  rhsContracting := [0]
  lhsNonContracting := [0]
  rhsNonContracting := [1]
  lhsBatch := []
  rhsBatch := []
  wf := dot_S32x16_S16x32768_S32x32768_1_0_0_1_n_n_wf
def dot_S64x32_S32x32768_S64x32768_1_0_0_1_n_n : DotDims S64x32 S32x32768 S64x32768 where
  lhsContracting := [1]
  rhsContracting := [0]
  lhsNonContracting := [0]
  rhsNonContracting := [1]
  lhsBatch := []
  rhsBatch := []
  wf := dot_S64x32_S32x32768_S64x32768_1_0_0_1_n_n_wf
def dot_S32x64_S64x32768_S32x32768_1_0_0_1_n_n : DotDims S32x64 S64x32768 S32x32768 where
  lhsContracting := [1]
  rhsContracting := [0]
  lhsNonContracting := [0]
  rhsNonContracting := [1]
  lhsBatch := []
  rhsBatch := []
  wf := dot_S32x64_S64x32768_S32x32768_1_0_0_1_n_n_wf
def dot_S16x32_S32x32768_S16x32768_1_0_0_1_n_n : DotDims S16x32 S32x32768 S16x32768 where
  lhsContracting := [1]
  rhsContracting := [0]
  lhsNonContracting := [0]
  rhsNonContracting := [1]
  lhsBatch := []
  rhsBatch := []
  wf := dot_S16x32_S32x32768_S16x32768_1_0_0_1_n_n_wf
def dot_S3x16_S16x32768_S3x32768_1_0_0_1_n_n : DotDims S3x16 S16x32768 S3x32768 where
  lhsContracting := [1]
  rhsContracting := [0]
  lhsNonContracting := [0]
  rhsNonContracting := [1]
  lhsBatch := []
  rhsBatch := []
  wf := dot_S3x16_S16x32768_S3x32768_1_0_0_1_n_n_wf

abbrev win0_0 : Pipeline.Window sig grid0 :=
  Pipeline.Window.ofSpecClip (Memref.whole main_v0) S3x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S16x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S16x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S16x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S3x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S3x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpecClip (Memref.whole main_v19) S3x32768.size cc0_transform_13 reads0_13 true false 2 stage0_13 sem0_13
    hrank0 hreads0_13 hstart0_13 nbuf0_13 (Memref.isWhole_whole _) hwx0_13 hwxs0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S2x16000000 : Shape := ⟨2, ![2, 16000000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x16 : Shape := ⟨2, ![32, 16]⟩
abbrev S16x3 : Shape := ⟨2, ![16, 3]⟩
abbrev S3 : Shape := ⟨1, ![3]⟩
abbrev S1000000x16 : Shape := ⟨2, ![1000000, 16]⟩
abbrev S1x16 : Shape := ⟨2, ![1, 16]⟩
abbrev S1000000x32 : Shape := ⟨2, ![1000000, 32]⟩
abbrev S1x32 : Shape := ⟨2, ![1, 32]⟩
abbrev S1000000x64 : Shape := ⟨2, ![1000000, 64]⟩
abbrev S1x64 : Shape := ⟨2, ![1, 64]⟩
abbrev S1x3 : Shape := ⟨2, ![1, 3]⟩

abbrev nBuf : Space → Nat
  | .hbm => 43
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S2x16000000, .i32⟩
  | .hbm, ⟨2, _⟩ => ⟨S3x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S16x3, .f32⟩
  | .hbm, ⟨13, _⟩ => ⟨S3, .f32⟩
  | .hbm, ⟨14, _⟩ => ⟨S1000000x16, .f32⟩
  | .hbm, ⟨15, _⟩ => ⟨S1x16, .f32⟩
  | .hbm, ⟨16, _⟩ => ⟨S1000000x16, .f32⟩
  | .hbm, ⟨17, _⟩ => ⟨S1000000x16, .f32⟩
  | .hbm, ⟨18, _⟩ => ⟨S1000000x16, .f32⟩
  | .hbm, ⟨19, _⟩ => ⟨S1000000x32, .f32⟩
  | .hbm, ⟨20, _⟩ => ⟨S1x32, .f32⟩
  | .hbm, ⟨21, _⟩ => ⟨S1000000x32, .f32⟩
  | .hbm, ⟨22, _⟩ => ⟨S1000000x32, .f32⟩
  | .hbm, ⟨23, _⟩ => ⟨S1000000x32, .f32⟩
  | .hbm, ⟨24, _⟩ => ⟨S1000000x64, .f32⟩
  | .hbm, ⟨25, _⟩ => ⟨S1x64, .f32⟩
  | .hbm, ⟨26, _⟩ => ⟨S1000000x64, .f32⟩
  | .hbm, ⟨27, _⟩ => ⟨S1000000x64, .f32⟩
  | .hbm, ⟨28, _⟩ => ⟨S1000000x64, .f32⟩
  | .hbm, ⟨29, _⟩ => ⟨S1000000x32, .f32⟩
  | .hbm, ⟨30, _⟩ => ⟨S1x32, .f32⟩
  | .hbm, ⟨31, _⟩ => ⟨S1000000x32, .f32⟩
  | .hbm, ⟨32, _⟩ => ⟨S1000000x32, .f32⟩
  | .hbm, ⟨33, _⟩ => ⟨S1000000x32, .f32⟩
  | .hbm, ⟨34, _⟩ => ⟨S1000000x16, .f32⟩
  | .hbm, ⟨35, _⟩ => ⟨S1x16, .f32⟩
  | .hbm, ⟨36, _⟩ => ⟨S1000000x16, .f32⟩
  | .hbm, ⟨37, _⟩ => ⟨S1000000x16, .f32⟩
  | .hbm, ⟨38, _⟩ => ⟨S1000000x16, .f32⟩
  | .hbm, ⟨39, _⟩ => ⟨S1000000x3, .f32⟩
  | .hbm, ⟨40, _⟩ => ⟨S1x3, .f32⟩
  | .hbm, ⟨41, _⟩ => ⟨S1000000x3, .f32⟩
  | .hbm, ⟨42, _⟩ => ⟨S1000000x3, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  dot_S1000000x3_S3x16_S1000000x16_1_0_0_1_n_n_wf : DotDims.WF S1000000x3 S3x16 S1000000x16 [1] [0] [0] [1] [] []
  dot_S1000000x16_S16x32_S1000000x32_1_0_0_1_n_n_wf : DotDims.WF S1000000x16 S16x32 S1000000x32 [1] [0] [0] [1] [] []
  dot_S1000000x32_S32x64_S1000000x64_1_0_0_1_n_n_wf : DotDims.WF S1000000x32 S32x64 S1000000x64 [1] [0] [0] [1] [] []
  dot_S1000000x64_S64x32_S1000000x32_1_0_0_1_n_n_wf : DotDims.WF S1000000x64 S64x32 S1000000x32 [1] [0] [0] [1] [] []
  dot_S1000000x32_S32x16_S1000000x16_1_0_0_1_n_n_wf : DotDims.WF S1000000x32 S32x16 S1000000x16 [1] [0] [0] [1] [] []
  dot_S1000000x16_S16x3_S1000000x3_1_0_0_1_n_n_wf : DotDims.WF S1000000x16 S16x3 S1000000x3 [1] [0] [0] [1] [] []

variable [Facts₀]

def dot_S1000000x3_S3x16_S1000000x16_1_0_0_1_n_n : DotDims S1000000x3 S3x16 S1000000x16 where
  lhsContracting := [1]
  rhsContracting := [0]
  lhsNonContracting := [0]
  rhsNonContracting := [1]
  lhsBatch := []
  rhsBatch := []
  wf := dot_S1000000x3_S3x16_S1000000x16_1_0_0_1_n_n_wf
def dot_S1000000x16_S16x32_S1000000x32_1_0_0_1_n_n : DotDims S1000000x16 S16x32 S1000000x32 where
  lhsContracting := [1]
  rhsContracting := [0]
  lhsNonContracting := [0]
  rhsNonContracting := [1]
  lhsBatch := []
  rhsBatch := []
  wf := dot_S1000000x16_S16x32_S1000000x32_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x16_S1000000x16_1_0_0_1_n_n : DotDims S1000000x32 S32x16 S1000000x16 where
  lhsContracting := [1]
  rhsContracting := [0]
  lhsNonContracting := [0]
  rhsNonContracting := [1]
  lhsBatch := []
  rhsBatch := []
  wf := dot_S1000000x32_S32x16_S1000000x16_1_0_0_1_n_n_wf
def dot_S1000000x16_S16x3_S1000000x3_1_0_0_1_n_n : DotDims S1000000x16 S16x3 S1000000x3 where
  lhsContracting := [1]
  rhsContracting := [0]
  lhsNonContracting := [0]
  rhsNonContracting := [1]
  lhsBatch := []
  rhsBatch := []
  wf := dot_S1000000x16_S16x3_S1000000x3_1_0_0_1_n_n_wf

class Facts : Prop extends Facts₀ where

variable [Facts]
-- ==== Proof.KernelBody.lean ====
/-
  The kernel's body at one grid point, as a statement about staging buffers.

  The body loads the coordinate block (3 × 32768) and the twelve weight and bias buffers whole, applies the six
  layers to the block, and stores the 3 × 32768 result whole. Nothing else is touched: the thirteen input buffers
  end as they began, and the result's buffer ends holding one function of what the inputs' buffers held.
-/
import proofs.«413920_j11433202942399_3_alg».proof.Proof.Gen.Kernel.Frame
import proofs.«413920_j11433202942399_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole-buffer rectangle of the result's staging buffer. -/
abbrev rOut : Rect S3x32768 := (Rect.unit (s := S3x32768) ![0, 0] S3x32768.size inb_S3x32768_S3x32768_0_0)

/-- What the body leaves in the result's staging buffer, from what the thirteen input buffers hold: its one store,
    of the six layers applied to the loaded coordinate block, covers the buffer. -/
def outOf (x0 : Vec F S3x32768 .f32) (x1 : Vec F S16x3 .bf16) (x2 : Vec F S16x1 .f32) (x3 : Vec F S32x16 .bf16) (x4 : Vec F S32x1 .f32) (x5 : Vec F S64x32 .bf16) (x6 : Vec F S64x1 .f32) (x7 : Vec F S32x64 .bf16) (x8 : Vec F S32x1 .f32) (x9 : Vec F S16x32 .bf16) (x10 : Vec F S16x1 .f32) (x11 : Vec F S3x16 .bf16) (x12 : Vec F S3x1 .f32) : Vec F S3x32768 .f32 :=
  View.canon [⟨rOut, k0_pay1 (k0_pay2 (View.ld x0 (Rect.unit (s := S3x32768) ![0, 0] S3x32768.size inb_S3x32768_S3x32768_0_0)) (View.ld x1 (Rect.unit (s := S16x3) ![0, 0] S16x3.size inb_S16x3_S16x3_0_0)) (View.ld x2 (Rect.unit (s := S16x1) ![0, 0] S16x1.size inb_S16x1_S16x1_0_0)) (View.ld x3 (Rect.unit (s := S32x16) ![0, 0] S32x16.size inb_S32x16_S32x16_0_0)) (View.ld x4 (Rect.unit (s := S32x1) ![0, 0] S32x1.size inb_S32x1_S32x1_0_0)) (View.ld x5 (Rect.unit (s := S64x32) ![0, 0] S64x32.size inb_S64x32_S64x32_0_0)) (View.ld x6 (Rect.unit (s := S64x1) ![0, 0] S64x1.size inb_S64x1_S64x1_0_0)) (View.ld x7 (Rect.unit (s := S32x64) ![0, 0] S32x64.size inb_S32x64_S32x64_0_0)) (View.ld x8 (Rect.unit (s := S32x1) ![0, 0] S32x1.size inb_S32x1_S32x1_0_0))) (View.ld x9 (Rect.unit (s := S16x32) ![0, 0] S16x32.size inb_S16x32_S16x32_0_0)) (View.ld x10 (Rect.unit (s := S16x1) ![0, 0] S16x1.size inb_S16x1_S16x1_0_0)) (View.ld x11 (Rect.unit (s := S3x16) ![0, 0] S3x16.size inb_S3x16_S3x16_0_0)) (View.ld x12 (Rect.unit (s := S3x1) ![0, 0] S3x1.size inb_S3x1_S3x1_0_0))⟩]

/-- One store through the whole-buffer rectangle covers the buffer. -/
theorem coverOut (p0 : Vec F S3x32768 .f32) (y : S3x32768.Idx) :
    ∃ pc ∈ ([⟨rOut, p0⟩] : List (View.Piece (Elt F) S3x32768 .f32)), y ∈ pc.1.set :=
  View.cover_of_tiled [⟨rOut, p0⟩] S3x32768.size (by rfl) y

/-- The kernel body on whole staging memrefs: the thirteen inputs' buffers at contents `x0 … x12`, the result's at
    anything. It loads every input whole, computes, and stores the result's buffer whole: the inputs' buffers are
    left as they were and the result's holds `outOf` of them. -/
theorem sound_kernel (c : Dev nD) (E : Set ℕ) (i : grid0.Coords) (arg1 : Memref sig .tc .vmem S3x32768 .f32) (harg1 : arg1.IsWhole) (arg2 : Memref sig .tc .vmem S16x3 .bf16) (harg2 : arg2.IsWhole) (arg3 : Memref sig .tc .vmem S16x1 .f32) (harg3 : arg3.IsWhole) (arg4 : Memref sig .tc .vmem S32x16 .bf16) (harg4 : arg4.IsWhole) (arg5 : Memref sig .tc .vmem S32x1 .f32) (harg5 : arg5.IsWhole) (arg6 : Memref sig .tc .vmem S64x32 .bf16) (harg6 : arg6.IsWhole) (arg7 : Memref sig .tc .vmem S64x1 .f32) (harg7 : arg7.IsWhole) (arg8 : Memref sig .tc .vmem S32x64 .bf16) (harg8 : arg8.IsWhole) (arg9 : Memref sig .tc .vmem S32x1 .f32) (harg9 : arg9.IsWhole) (arg10 : Memref sig .tc .vmem S16x32 .bf16) (harg10 : arg10.IsWhole) (arg11 : Memref sig .tc .vmem S16x1 .f32) (harg11 : arg11.IsWhole) (arg12 : Memref sig .tc .vmem S3x16 .bf16) (harg12 : arg12.IsWhole) (arg13 : Memref sig .tc .vmem S3x1 .f32) (harg13 : arg13.IsWhole) (arg14 : Memref sig .tc .vmem S3x32768 .f32) (harg14 : arg14.IsWhole)
    (x0 : Vec F S3x32768 .f32) (x1 : Vec F S16x3 .bf16) (x2 : Vec F S16x1 .f32) (x3 : Vec F S32x16 .bf16) (x4 : Vec F S32x1 .f32) (x5 : Vec F S64x32 .bf16) (x6 : Vec F S64x1 .f32) (x7 : Vec F S32x64 .bf16) (x8 : Vec F S32x1 .f32) (x9 : Vec F S16x32 .bf16) (x10 : Vec F S16x1 .f32) (x11 : Vec F S3x16 .bf16) (x12 : Vec F S3x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outOf x0 x1 x2 x3 x4 x5 x6 x7 x8 x9 x10 x11 x12)) -∗ K ⟨⟩))
      ⊢ wp frame (wpE (defs₀ (F := F)) Variants.none c none) E (cc0__mlp_kernel_fm i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_fm_eq_skeleton]; unfold cc0__mlp_kernel_fm_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (coverOut _)

end Cert.Kernel.Body

end
-- ==== Proof.KernelData.lean ====
/-
  The pipeline's proof data for the kernel: what each staging buffer holds when the body starts at a grid point
  and what the body leaves there.

  The node axis (1,000,000 columns) is walked in 31 blocks of 32768 columns; the last block reaches 15808
  columns past the array's end. A fetch of that block fills only the 16960 columns inside the array and leaves
  the rest of the buffer at contents nothing names, and the write-back of the result's last block writes only its
  first 16960 columns. The weights and biases are whole arrays fetched once.
-/
import proofs.«413920_j11433202942399_3_alg».proof.Proof.KernelBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- A filler for the part of the coordinate block's buffer that lies past the array's end; nothing reads it. -/
def zfill : S3x32768.Idx → Elt F .f32 := fun _ => Scalar.ofBits .f32 0#32

/-- The coordinate block's staging buffer at point `t` once its fetch has landed: the columns of the block that
    lie inside the array (all 32768 at the first thirty points, 16960 at the last), and `d` on the columns past
    the array's end, which the fetch does not fill. -/
def xfill (c : Dev nD) (t : Fin cfg0.N) (d : S3x32768.Idx → Elt F .f32) : S3x32768.Idx → Elt F .f32 :=
  win0_0.fill (grid0.coords t) d (iblk m c 0 t)

/-- The proof data of the pipeline on core `c`: the arrays as the region finds them; after the body at point `t`
    the coordinate block's buffer at its block (filled out past the array's end by `zfill`), the twelve weight and
    bias buffers at their arrays, and the result's buffer at the body's result on those; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t zfill
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outOf (xfill m c t zfill) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfill m c t zfill := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) :
    (dats m 0 c).after 13 t = outOf (xfill m c t zfill) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- The coordinate block is fetched at every point: the body finds its buffer just filled, `d` past the array's end. -/
theorem before_0 (c : Dev nD) (t : Fin cfg0.N) (d) : (dats m 0 c).before 0 t d = xfill m c t d := by
  unfold Dat.before; rw [if_pos (fetch0_0 t)]; rfl
/-- A weight's or a bias's buffer holds its whole array at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
/-- The result's buffer is written back at every point, so the body finds it at contents nothing names. -/
theorem before_13 (c : Dev nD) (t : Fin cfg0.N) (d) : (dats m 0 c).before 13 t d = d :=
  (dats m 0 c).before_out_reset 13 rfl t (by
    by_cases h : t.val = 0
    · exact .inl h
    · exact .inr ⟨h, flush0_13 _⟩) d

end Cert.Kernel.Body

end
-- ==== Proof.KernelForget.lean ====
/-
  The frame of the program: it runs to the end, faults nowhere, and leaves its argument arrays unchanged.

  The body at a point loads its thirteen input buffers and stores the result's buffer whole, so the inputs' buffers
  leave a point as they came; that is all the frame needs. What the result's buffer holds is left unnamed here: at
  the last point the coordinate block's buffer holds contents nothing names past the array's end, and whether the
  result's columns inside the array depend on them is a question about the matrix product this module does not ask.
-/
import proofs.«413920_j11433202942399_3_alg».proof.Proof.KernelData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, the result's buffer left unnamed -/

/-- The one window whose contents after the body this module does not name: the result's. At the word-level
    instance the matrix unit's term at an element is a function of the element's row of the left operand and of the
    WHOLE right operand, so the result's columns inside the array cannot be said to be independent of the columns
    past the array's end, which hold contents nothing names; the frame needs nothing of the result's contents. -/
def forgets : Fin 14 → Bool := fun w => w.val == 13

/-- The part of the coordinate block's buffer the transfers move, of what the proof data say the body leaves
    there, is the block. -/
theorem cut_after_0 (c : Dev nD) (t : Fin cfg0.N) :
    win0_0.cut (grid0.coords t) (xfill m c t zfill) = iblk m c 0 t := win0_0.cut_fill _ _ _

/-- The library's body obligation at every point, the result's window forgotten: the thirteen inputs' buffers arrive
    at their blocks (the coordinate block filled out by `d` past the array's end) and leave as they came; the
    result's arrives and leaves at some contents. -/
theorem body_obligation_fgt (c : Dev nD) :
    BodyObligationLoose (dats m 0 c) (defs₀ (F := F)) Variants.none () Set.univ forgets := fun t => by
  rw [bigSep_W0, bigSep_W0]
  simp only [forgets, (show ((0 : Fin 14).val == 13) = false from rfl), (show ((1 : Fin 14).val == 13) = false from rfl), (show ((2 : Fin 14).val == 13) = false from rfl), (show ((3 : Fin 14).val == 13) = false from rfl), (show ((4 : Fin 14).val == 13) = false from rfl), (show ((5 : Fin 14).val == 13) = false from rfl), (show ((6 : Fin 14).val == 13) = false from rfl), (show ((7 : Fin 14).val == 13) = false from rfl), (show ((8 : Fin 14).val == 13) = false from rfl), (show ((9 : Fin 14).val == 13) = false from rfl), (show ((10 : Fin 14).val == 13) = false from rfl), (show ((11 : Fin 14).val == 13) = false from rfl), (show ((12 : Fin 14).val == 13) = false from rfl), (show ((13 : Fin 14).val == 13) = true from rfl)]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%X13, H13⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12]
  iapply (sound_kernel (F := F) c Set.univ (grid0.coords t) _ _ _ _ _ _ _ _ _ _ _ _ _ _ _ _ _ _ _ _ _ _ _ _ _ _ _ _ (xfill m c t d0) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists X13; iexact H13
  iintro ⟨H0, H1, H2, H3, H4, H5, H6, H7, H8, H9, H10, H11, H12, H13⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [after_0, cut_after_0]
    exact .rfl
  isplitl [H1]; · rw [after_1]; try iexact H1
  isplitl [H2]; · rw [after_2]; try iexact H2
  isplitl [H3]; · rw [after_3]; try iexact H3
  isplitl [H4]; · rw [after_4]; try iexact H4
  isplitl [H5]; · rw [after_5]; try iexact H5
  isplitl [H6]; · rw [after_6]; try iexact H6
  isplitl [H7]; · rw [after_7]; try iexact H7
  isplitl [H8]; · rw [after_8]; try iexact H8
  isplitl [H9]; · rw [after_9]; try iexact H9
  isplitl [H10]; · rw [after_10]; try iexact H10
  isplitl [H11]; · rw [after_11]; try iexact H11
  isplitl [H12]; · rw [after_12]; try iexact H12
  iexists _; iexact H13

/-! ## The run and the frame -/

/-- The buffer the host line after the region writes, the transposed result: computed from contents this module does
    not name, so nothing is said of it either. -/
def T0 : Finset (Ref sig .tc) := {main_v20}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- At the compiled mesh, for any values, from any memory with zero counters: every weakly fair execution of @main
    terminates, and every unscoped buffer that is neither an array of the pipeline nor the transposed result ends
    holding what it held when the region was entered. -/
theorem run_frame : θ_run defs (onTc (τ := τ) (main (F := F))) (s₀ m ρ)
    (Pipeline.RDat.FramePostR (cfgs 0) (fun c => (dats m 0 c).toRForget forgets) T0 (V m)) :=
  Pipeline.RDat.θ_run_frame_around_T cfgs (0 : Fin 1) launch0 defs₀ Variants.none (fun c => (dats m 0 c).toRForget forgets) T0 m ρ main
    (hbody := fun c => (body_obligation_fgt m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the program runs to the end without a fault and its fourteen argument arrays end unchanged. None of
    them is an array of the pipeline (the region reads transposed, narrowed or reshaped copies) and none is written
    by a host operation, before or after the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c)⟩) (run_frame m ρ)

end Cert.Kernel.Body

end
-- ==== Proof.Body.lean ====
/-
  The kernel's body at one grid point, as a statement about staging buffers.

  The body loads the coordinate block (3 × 32768) and the twelve weight and bias buffers whole, applies the six
  layers to the block, and stores the 3 × 32768 result whole. Nothing else is touched: the thirteen input buffers
  end as they began, and the result's buffer ends holding one function of what the inputs' buffers held.
-/
import proofs.«413920_j11433202942399_3_alg».proof.Proof.Gen.KernelIdeal.Frame
import proofs.«413920_j11433202942399_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole-buffer rectangle of the result's staging buffer. -/
abbrev rOut : Rect S3x32768 := (Rect.unit (s := S3x32768) ![0, 0] S3x32768.size inb_S3x32768_S3x32768_0_0)

/-- What the body leaves in the result's staging buffer, from what the thirteen input buffers hold: its one store,
    of the six layers applied to the loaded coordinate block, covers the buffer. -/
def outOf (x0 : Vec F S3x32768 .f32) (x1 : Vec F S16x3 .bf16) (x2 : Vec F S16x1 .f32) (x3 : Vec F S32x16 .bf16) (x4 : Vec F S32x1 .f32) (x5 : Vec F S64x32 .bf16) (x6 : Vec F S64x1 .f32) (x7 : Vec F S32x64 .bf16) (x8 : Vec F S32x1 .f32) (x9 : Vec F S16x32 .bf16) (x10 : Vec F S16x1 .f32) (x11 : Vec F S3x16 .bf16) (x12 : Vec F S3x1 .f32) : Vec F S3x32768 .f32 :=
  View.canon [⟨rOut, k0_pay1 (k0_pay2 (View.ld x0 (Rect.unit (s := S3x32768) ![0, 0] S3x32768.size inb_S3x32768_S3x32768_0_0)) (View.ld x1 (Rect.unit (s := S16x3) ![0, 0] S16x3.size inb_S16x3_S16x3_0_0)) (View.ld x2 (Rect.unit (s := S16x1) ![0, 0] S16x1.size inb_S16x1_S16x1_0_0)) (View.ld x3 (Rect.unit (s := S32x16) ![0, 0] S32x16.size inb_S32x16_S32x16_0_0)) (View.ld x4 (Rect.unit (s := S32x1) ![0, 0] S32x1.size inb_S32x1_S32x1_0_0)) (View.ld x5 (Rect.unit (s := S64x32) ![0, 0] S64x32.size inb_S64x32_S64x32_0_0)) (View.ld x6 (Rect.unit (s := S64x1) ![0, 0] S64x1.size inb_S64x1_S64x1_0_0)) (View.ld x7 (Rect.unit (s := S32x64) ![0, 0] S32x64.size inb_S32x64_S32x64_0_0)) (View.ld x8 (Rect.unit (s := S32x1) ![0, 0] S32x1.size inb_S32x1_S32x1_0_0))) (View.ld x9 (Rect.unit (s := S16x32) ![0, 0] S16x32.size inb_S16x32_S16x32_0_0)) (View.ld x10 (Rect.unit (s := S16x1) ![0, 0] S16x1.size inb_S16x1_S16x1_0_0)) (View.ld x11 (Rect.unit (s := S3x16) ![0, 0] S3x16.size inb_S3x16_S3x16_0_0)) (View.ld x12 (Rect.unit (s := S3x1) ![0, 0] S3x1.size inb_S3x1_S3x1_0_0))⟩]

/-- One store through the whole-buffer rectangle covers the buffer. -/
theorem coverOut (p0 : Vec F S3x32768 .f32) (y : S3x32768.Idx) :
    ∃ pc ∈ ([⟨rOut, p0⟩] : List (View.Piece (Elt F) S3x32768 .f32)), y ∈ pc.1.set :=
  View.cover_of_tiled [⟨rOut, p0⟩] S3x32768.size (by rfl) y

/-- The kernel body on whole staging memrefs: the thirteen inputs' buffers at contents `x0 … x12`, the result's at
    anything. It loads every input whole, computes, and stores the result's buffer whole: the inputs' buffers are
    left as they were and the result's holds `outOf` of them. -/
theorem sound_kernel (c : Dev nD) (E : Set ℕ) (i : grid0.Coords) (arg1 : Memref sig .tc .vmem S3x32768 .f32) (harg1 : arg1.IsWhole) (arg2 : Memref sig .tc .vmem S16x3 .bf16) (harg2 : arg2.IsWhole) (arg3 : Memref sig .tc .vmem S16x1 .f32) (harg3 : arg3.IsWhole) (arg4 : Memref sig .tc .vmem S32x16 .bf16) (harg4 : arg4.IsWhole) (arg5 : Memref sig .tc .vmem S32x1 .f32) (harg5 : arg5.IsWhole) (arg6 : Memref sig .tc .vmem S64x32 .bf16) (harg6 : arg6.IsWhole) (arg7 : Memref sig .tc .vmem S64x1 .f32) (harg7 : arg7.IsWhole) (arg8 : Memref sig .tc .vmem S32x64 .bf16) (harg8 : arg8.IsWhole) (arg9 : Memref sig .tc .vmem S32x1 .f32) (harg9 : arg9.IsWhole) (arg10 : Memref sig .tc .vmem S16x32 .bf16) (harg10 : arg10.IsWhole) (arg11 : Memref sig .tc .vmem S16x1 .f32) (harg11 : arg11.IsWhole) (arg12 : Memref sig .tc .vmem S3x16 .bf16) (harg12 : arg12.IsWhole) (arg13 : Memref sig .tc .vmem S3x1 .f32) (harg13 : arg13.IsWhole) (arg14 : Memref sig .tc .vmem S3x32768 .f32) (harg14 : arg14.IsWhole)
    (x0 : Vec F S3x32768 .f32) (x1 : Vec F S16x3 .bf16) (x2 : Vec F S16x1 .f32) (x3 : Vec F S32x16 .bf16) (x4 : Vec F S32x1 .f32) (x5 : Vec F S64x32 .bf16) (x6 : Vec F S64x1 .f32) (x7 : Vec F S32x64 .bf16) (x8 : Vec F S32x1 .f32) (x9 : Vec F S16x32 .bf16) (x10 : Vec F S16x1 .f32) (x11 : Vec F S3x16 .bf16) (x12 : Vec F S3x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outOf x0 x1 x2 x3 x4 x5 x6 x7 x8 x9 x10 x11 x12)) -∗ K ⟨⟩))
      ⊢ wp frame (wpE (defs₀ (F := F)) Variants.none c none) E (cc0__mlp_kernel_fm i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_fm_eq_skeleton]; unfold cc0__mlp_kernel_fm_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (coverOut _)

end Cert.KernelIdeal.Body

end
-- ==== Proof.Data.lean ====
/-
  The pipeline's proof data for the kernel: what each staging buffer holds when the body starts at a grid point
  and what the body leaves there.

  The node axis (1,000,000 columns) is walked in 31 blocks of 32768 columns; the last block reaches 15808
  columns past the array's end. A fetch of that block fills only the 16960 columns inside the array and leaves
  the rest of the buffer at contents nothing names, and the write-back of the result's last block writes only its
  first 16960 columns. The weights and biases are whole arrays fetched once.
-/
import proofs.«413920_j11433202942399_3_alg».proof.Proof.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- A filler for the part of the coordinate block's buffer that lies past the array's end; nothing reads it. -/
def zfill : S3x32768.Idx → Elt F .f32 := fun _ => Scalar.ofBits .f32 0#32

/-- The coordinate block's staging buffer at point `t` once its fetch has landed: the columns of the block that
    lie inside the array (all 32768 at the first thirty points, 16960 at the last), and `d` on the columns past
    the array's end, which the fetch does not fill. -/
def xfill (c : Dev nD) (t : Fin cfg0.N) (d : S3x32768.Idx → Elt F .f32) : S3x32768.Idx → Elt F .f32 :=
  win0_0.fill (grid0.coords t) d (iblk m c 0 t)

/-- The proof data of the pipeline on core `c`: the arrays as the region finds them; after the body at point `t`
    the coordinate block's buffer at its block (filled out past the array's end by `zfill`), the twelve weight and
    bias buffers at their arrays, and the result's buffer at the body's result on those; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t zfill
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outOf (xfill m c t zfill) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfill m c t zfill := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) :
    (dats m 0 c).after 13 t = outOf (xfill m c t zfill) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- The coordinate block is fetched at every point: the body finds its buffer just filled, `d` past the array's end. -/
theorem before_0 (c : Dev nD) (t : Fin cfg0.N) (d) : (dats m 0 c).before 0 t d = xfill m c t d := by
  unfold Dat.before; rw [if_pos (fetch0_0 t)]; rfl
/-- A weight's or a bias's buffer holds its whole array at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
/-- The result's buffer is written back at every point, so the body finds it at contents nothing names. -/
theorem before_13 (c : Dev nD) (t : Fin cfg0.N) (d) : (dats m 0 c).before 13 t d = d :=
  (dats m 0 c).before_out_reset 13 rfl t (by
    by_cases h : t.val = 0
    · exact .inl h
    · exact .inr ⟨h, flush0_13 _⟩) d

end Cert.KernelIdeal.Body

end
-- ==== Proof.Forget.lean ====
/-
  The frame of the program: it runs to the end, faults nowhere, and leaves its argument arrays unchanged.

  The body at a point loads its thirteen input buffers and stores the result's buffer whole, so the inputs' buffers
  leave a point as they came; that is all the frame needs. What the result's buffer holds is left unnamed here: at
  the last point the coordinate block's buffer holds contents nothing names past the array's end, and whether the
  result's columns inside the array depend on them is a question about the matrix product this module does not ask.
-/
import proofs.«413920_j11433202942399_3_alg».proof.Proof.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, the result's buffer left unnamed -/

/-- The one window whose contents after the body this module does not name: the result's. At the word-level
    instance the matrix unit's term at an element is a function of the element's row of the left operand and of the
    WHOLE right operand, so the result's columns inside the array cannot be said to be independent of the columns
    past the array's end, which hold contents nothing names; the frame needs nothing of the result's contents. -/
def forgets : Fin 14 → Bool := fun w => w.val == 13

/-- The part of the coordinate block's buffer the transfers move, of what the proof data say the body leaves
    there, is the block. -/
theorem cut_after_0 (c : Dev nD) (t : Fin cfg0.N) :
    win0_0.cut (grid0.coords t) (xfill m c t zfill) = iblk m c 0 t := win0_0.cut_fill _ _ _

/-- The library's body obligation at every point, the result's window forgotten: the thirteen inputs' buffers arrive
    at their blocks (the coordinate block filled out by `d` past the array's end) and leave as they came; the
    result's arrives and leaves at some contents. -/
theorem body_obligation_fgt (c : Dev nD) :
    BodyObligationLoose (dats m 0 c) (defs₀ (F := F)) Variants.none () Set.univ forgets := fun t => by
  rw [bigSep_W0, bigSep_W0]
  simp only [forgets, (show ((0 : Fin 14).val == 13) = false from rfl), (show ((1 : Fin 14).val == 13) = false from rfl), (show ((2 : Fin 14).val == 13) = false from rfl), (show ((3 : Fin 14).val == 13) = false from rfl), (show ((4 : Fin 14).val == 13) = false from rfl), (show ((5 : Fin 14).val == 13) = false from rfl), (show ((6 : Fin 14).val == 13) = false from rfl), (show ((7 : Fin 14).val == 13) = false from rfl), (show ((8 : Fin 14).val == 13) = false from rfl), (show ((9 : Fin 14).val == 13) = false from rfl), (show ((10 : Fin 14).val == 13) = false from rfl), (show ((11 : Fin 14).val == 13) = false from rfl), (show ((12 : Fin 14).val == 13) = false from rfl), (show ((13 : Fin 14).val == 13) = true from rfl)]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%X13, H13⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12]
  iapply (sound_kernel (F := F) c Set.univ (grid0.coords t) _ _ _ _ _ _ _ _ _ _ _ _ _ _ _ _ _ _ _ _ _ _ _ _ _ _ _ _ (xfill m c t d0) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists X13; iexact H13
  iintro ⟨H0, H1, H2, H3, H4, H5, H6, H7, H8, H9, H10, H11, H12, H13⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [after_0, cut_after_0]
    exact .rfl
  isplitl [H1]; · rw [after_1]; try iexact H1
  isplitl [H2]; · rw [after_2]; try iexact H2
  isplitl [H3]; · rw [after_3]; try iexact H3
  isplitl [H4]; · rw [after_4]; try iexact H4
  isplitl [H5]; · rw [after_5]; try iexact H5
  isplitl [H6]; · rw [after_6]; try iexact H6
  isplitl [H7]; · rw [after_7]; try iexact H7
  isplitl [H8]; · rw [after_8]; try iexact H8
  isplitl [H9]; · rw [after_9]; try iexact H9
  isplitl [H10]; · rw [after_10]; try iexact H10
  isplitl [H11]; · rw [after_11]; try iexact H11
  isplitl [H12]; · rw [after_12]; try iexact H12
  iexists _; iexact H13

/-! ## The run and the frame -/

/-- The buffer the host line after the region writes, the transposed result: computed from contents this module does
    not name, so nothing is said of it either. -/
def T0 : Finset (Ref sig .tc) := {main_v20}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- At the compiled mesh, for any values, from any memory with zero counters: every weakly fair execution of @main
    terminates, and every unscoped buffer that is neither an array of the pipeline nor the transposed result ends
    holding what it held when the region was entered. -/
theorem run_frame : θ_run defs (onTc (τ := τ) (main (F := F))) (s₀ m ρ)
    (Pipeline.RDat.FramePostR (cfgs 0) (fun c => (dats m 0 c).toRForget forgets) T0 (V m)) :=
  Pipeline.RDat.θ_run_frame_around_T cfgs (0 : Fin 1) launch0 defs₀ Variants.none (fun c => (dats m 0 c).toRForget forgets) T0 m ρ main
    (hbody := fun c => (body_obligation_fgt m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the program runs to the end without a fault and its fourteen argument arrays end unchanged. None of
    them is an array of the pipeline (the region reads transposed, narrowed or reshaped copies) and none is written
    by a host operation, before or after the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c)⟩) (run_frame m ρ)

end Cert.KernelIdeal.Body

end
-- ==== Proof.Spec.lean ====
/-
  The function both programs compute, over the extended reals.

  A node's three coordinates pass through six affine layers, widths 3 → 16 → 32 → 64 → 32 → 16 → 3, the
  hyperbolic tangent applied between consecutive layers and not after the last. One layer maps a feature vector
  `x` to `o ↦ (∑ k, x k * W k o) + b o`. Nothing couples two nodes: row `n` of the result is the network applied
  to row `n` of the coordinate array. The edge list takes no part.
-/
import Idealize.ShloMosaic.PureOps.Ideal
import Idealize.ShloMosaic.Lib.ValueIdx

noncomputable section

open scoped BigOperators

namespace Cert.Mlp

open Idealize.ShloMosaic Idealize.ShloMosaic.ValueIdx

/-- One affine layer on a feature vector: `o ↦ (∑ k, x k * W k o) + b o`. -/
def affine {fi fo : ℕ} (W : Fin fi → Fin fo → EReal) (b : Fin fo → EReal) (x : Fin fi → EReal) : Fin fo → EReal :=
  fun o => (∑ k : Fin fi, x k * W k o) + b o

/-- The hyperbolic tangent of every feature (at the infinities its limits `-1` and `1`). -/
def act {n : ℕ} (x : Fin n → EReal) : Fin n → EReal := fun o => Ideal.tanh (x o)

/-- The six layers on one node's coordinates. -/
def net (W1 : Fin 3 → Fin 16 → EReal) (b1 : Fin 16 → EReal) (W2 : Fin 16 → Fin 32 → EReal) (b2 : Fin 32 → EReal)
    (W3 : Fin 32 → Fin 64 → EReal) (b3 : Fin 64 → EReal) (W4 : Fin 64 → Fin 32 → EReal) (b4 : Fin 32 → EReal)
    (W5 : Fin 32 → Fin 16 → EReal) (b5 : Fin 16 → EReal) (Wl : Fin 16 → Fin 3 → EReal) (bl : Fin 3 → EReal)
    (x : Fin 3 → EReal) : Fin 3 → EReal :=
  affine Wl bl (act (affine W5 b5 (act (affine W4 b4 (act (affine W3 b3 (act (affine W2 b2 (act (affine W1 b1 x))))))))))

/-- A matrix stored as a rank-2 array, as a function of its two coordinates. -/
abbrev mat {r c : ℕ} (W : (⟨2, ![r, c]⟩ : Shape).Idx → EReal) : Fin r → Fin c → EReal := fun k o => W (ix2 k o)
/-- A vector stored as a rank-1 array, as a function of its coordinate. -/
abbrev vec {n : ℕ} (b : (⟨1, ![n]⟩ : Shape).Idx → EReal) : Fin n → EReal := fun o => b (ix1 o)

/-- The result array: entry `(n, o)` is output feature `o` of the network on row `n` of the coordinates. -/
def G (x : (⟨2, ![1000000, 3]⟩ : Shape).Idx → EReal)
    (W1 : (⟨2, ![3, 16]⟩ : Shape).Idx → EReal) (b1 : (⟨1, ![16]⟩ : Shape).Idx → EReal)
    (W2 : (⟨2, ![16, 32]⟩ : Shape).Idx → EReal) (b2 : (⟨1, ![32]⟩ : Shape).Idx → EReal)
    (W3 : (⟨2, ![32, 64]⟩ : Shape).Idx → EReal) (b3 : (⟨1, ![64]⟩ : Shape).Idx → EReal)
    (W4 : (⟨2, ![64, 32]⟩ : Shape).Idx → EReal) (b4 : (⟨1, ![32]⟩ : Shape).Idx → EReal)
    (W5 : (⟨2, ![32, 16]⟩ : Shape).Idx → EReal) (b5 : (⟨1, ![16]⟩ : Shape).Idx → EReal)
    (Wl : (⟨2, ![16, 3]⟩ : Shape).Idx → EReal) (bl : (⟨1, ![3]⟩ : Shape).Idx → EReal) :
    (⟨2, ![1000000, 3]⟩ : Shape).Idx → EReal :=
  fun i => net (mat W1) (vec b1) (mat W2) (vec b2) (mat W3) (vec b3) (mat W4) (vec b4) (mat W5) (vec b5) (mat Wl) (vec bl)
    (fun k => x (ix2 (i 0) k)) (i 1)

/-- The network's output on a node depends on that node's coordinates only. -/
theorem net_congr (W1 : Fin 3 → Fin 16 → EReal) (b1 : Fin 16 → EReal) (W2 : Fin 16 → Fin 32 → EReal) (b2 : Fin 32 → EReal)
    (W3 : Fin 32 → Fin 64 → EReal) (b3 : Fin 64 → EReal) (W4 : Fin 64 → Fin 32 → EReal) (b4 : Fin 32 → EReal)
    (W5 : Fin 32 → Fin 16 → EReal) (b5 : Fin 16 → EReal) (Wl : Fin 16 → Fin 3 → EReal) (bl : Fin 3 → EReal)
    {x y : Fin 3 → EReal} (h : ∀ k, x k = y k) :
    net W1 b1 W2 b2 W3 b3 W4 b4 W5 b5 Wl bl x = net W1 b1 W2 b2 W3 b3 W4 b4 W5 b5 Wl bl y := by
  rw [funext h]

end Cert.Mlp

end
-- ==== Proof.KernelPayload.lean ====
/-
  The kernel's stored value at one index is the network of the specification on one column of the block.

  The block holds 32768 nodes as columns, three coordinates each. A layer multiplies its weight matrix, held
  transposed as [outputs, inputs], into the [inputs, 32768] activations, adds the bias column to every column,
  and (except the last layer) takes the hyperbolic tangent. Every step acts on each column by itself, so entry
  (p, q) of the result is output feature p of the six layers applied to column q.
-/
import proofs.«413920_j11433202942399_3_alg».proof.Proof.Gen.KernelIdeal.Skeleton
import proofs.«413920_j11433202942399_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The bias column spread over the columns

A [n, 1] column broadcast to [n, 32768], read at entry (o, q), is the column's entry o. -/

theorem bias16 (c : FVec Ideal S16x1 .f32) (o : Fin 16) (q : Fin 32768) :
    broadcastTo S16x32768 c broadcasts_S16x1_S16x32768 (ix2 o q) = c (ix2 o ⟨0, Nat.one_pos⟩) :=
  broadcastTo_apply c broadcasts_S16x1_S16x32768 (ix2 o q) (ix2 o ⟨0, Nat.one_pos⟩) (fun a => match a with
    | ⟨0, _⟩ => by show o.val = if (16 : Nat) = 1 then 0 else o.val; rw [if_neg (by decide)]
    | ⟨1, _⟩ => by show 0 = if (1 : Nat) = 1 then 0 else q.val; rw [if_pos rfl])

theorem bias32 (c : FVec Ideal S32x1 .f32) (o : Fin 32) (q : Fin 32768) :
    broadcastTo S32x32768 c broadcasts_S32x1_S32x32768 (ix2 o q) = c (ix2 o ⟨0, Nat.one_pos⟩) :=
  broadcastTo_apply c broadcasts_S32x1_S32x32768 (ix2 o q) (ix2 o ⟨0, Nat.one_pos⟩) (fun a => match a with
    | ⟨0, _⟩ => by show o.val = if (32 : Nat) = 1 then 0 else o.val; rw [if_neg (by decide)]
    | ⟨1, _⟩ => by show 0 = if (1 : Nat) = 1 then 0 else q.val; rw [if_pos rfl])

theorem bias64 (c : FVec Ideal S64x1 .f32) (o : Fin 64) (q : Fin 32768) :
    broadcastTo S64x32768 c broadcasts_S64x1_S64x32768 (ix2 o q) = c (ix2 o ⟨0, Nat.one_pos⟩) :=
  broadcastTo_apply c broadcasts_S64x1_S64x32768 (ix2 o q) (ix2 o ⟨0, Nat.one_pos⟩) (fun a => match a with
    | ⟨0, _⟩ => by show o.val = if (64 : Nat) = 1 then 0 else o.val; rw [if_neg (by decide)]
    | ⟨1, _⟩ => by show 0 = if (1 : Nat) = 1 then 0 else q.val; rw [if_pos rfl])

theorem bias3 (c : FVec Ideal S3x1 .f32) (o : Fin 3) (q : Fin 32768) :
    broadcastTo S3x32768 c broadcasts_S3x1_S3x32768 (ix2 o q) = c (ix2 o ⟨0, Nat.one_pos⟩) :=
  broadcastTo_apply c broadcasts_S3x1_S3x32768 (ix2 o q) (ix2 o ⟨0, Nat.one_pos⟩) (fun a => match a with
    | ⟨0, _⟩ => by show o.val = if (3 : Nat) = 1 then 0 else o.val; rw [if_neg (by decide)]
    | ⟨1, _⟩ => by show 0 = if (1 : Nat) = 1 then 0 else q.val; rw [if_pos rfl])

/-! ## The six matrix products

Each contracts axis 1 of the [outputs, inputs] matrix with axis 0 of the [inputs, 32768] activations. At output
entry (o, q) and contraction position k the left operand is read at (o, k) and the right at (k, q); the sum over the
one-axis contraction shape is re-indexed to a sum over the inputs. -/

/-! ### Layer 1: [16, 3] into [3, 32768] -/

theorem lhs1_0 (i : S16x32768.Idx) (q : dot_S16x3_S3x32768_S16x32768_1_0_0_1_n_n.contr.Idx) :
    (dot_S16x3_S3x32768_S16x32768_1_0_0_1_n_n.lhsIdx i q 0).val = (i 0).val := by
  unfold DotDims.lhsIdx
  rw [dif_neg (show ¬(0 : Fin S16x3.rank) ∈ dot_S16x3_S3x32768_S16x32768_1_0_0_1_n_n.lhsBatch by decide), dif_pos (show (0 : Fin S16x3.rank) ∈ dot_S16x3_S3x32768_S16x32768_1_0_0_1_n_n.lhsNonContracting by decide)]
  rfl
theorem lhs1_1 (i : S16x32768.Idx) (q : dot_S16x3_S3x32768_S16x32768_1_0_0_1_n_n.contr.Idx) :
    (dot_S16x3_S3x32768_S16x32768_1_0_0_1_n_n.lhsIdx i q 1).val = (q ⟨0, by decide⟩).val :=
  dot_S16x3_S3x32768_S16x32768_1_0_0_1_n_n.lhsIdx_val_of_single rfl i q
theorem rhs1_0 (i : S16x32768.Idx) (q : dot_S16x3_S3x32768_S16x32768_1_0_0_1_n_n.contr.Idx) :
    (dot_S16x3_S3x32768_S16x32768_1_0_0_1_n_n.rhsIdx i q 0).val = (q ⟨0, by decide⟩).val :=
  dot_S16x3_S3x32768_S16x32768_1_0_0_1_n_n.rhsIdx_val_of_single rfl i q
theorem rhs1_1 (i : S16x32768.Idx) (q : dot_S16x3_S3x32768_S16x32768_1_0_0_1_n_n.contr.Idx) :
    (dot_S16x3_S3x32768_S16x32768_1_0_0_1_n_n.rhsIdx i q 1).val = (i 1).val := by
  unfold DotDims.rhsIdx
  rw [dif_neg (show ¬(1 : Fin S3x32768.rank) ∈ dot_S16x3_S3x32768_S16x32768_1_0_0_1_n_n.rhsBatch by decide), dif_pos (show (1 : Fin S3x32768.rank) ∈ dot_S16x3_S3x32768_S16x32768_1_0_0_1_n_n.rhsNonContracting by decide)]
  rfl

/-- Entry (o, q) of the product into the zero accumulator is row o of the matrix against column q. -/
theorem mm1 (w : FVec Ideal S16x3 .bf16) (x : FVec Ideal S3x32768 .bf16) (o : Fin 16) (q : Fin 32768) :
    matmul (F := Ideal) dot_S16x3_S3x32768_S16x32768_1_0_0_1_n_n none w x (constant (F := Ideal) S16x32768 .f32 0x00000000#32) (ix2 o q)
      = ∑ k : Fin 3, w (ix2 o k) * x (ix2 k q) := by
  simp only [matmul]
  rw [Ideal.matmul_constant_zero_apply, ← Equiv.sum_comp (contrEquiv1 dot_S16x3_S3x32768_S16x32768_1_0_0_1_n_n 3 rfl rfl).symm]
  refine Finset.sum_congr rfl fun k _ => ?_
  have hk := contrEquiv1_symm_val dot_S16x3_S3x32768_S16x32768_1_0_0_1_n_n 3 rfl rfl k
  have el : dot_S16x3_S3x32768_S16x32768_1_0_0_1_n_n.lhsIdx (ix2 o q) ((contrEquiv1 dot_S16x3_S3x32768_S16x32768_1_0_0_1_n_n 3 rfl rfl).symm k) = ix2 o k := funext fun a => Fin.ext (by
    match a with
    | ⟨0, _⟩ => exact lhs1_0 _ _
    | ⟨1, _⟩ => exact (lhs1_1 _ _).trans hk)
  have er : dot_S16x3_S3x32768_S16x32768_1_0_0_1_n_n.rhsIdx (ix2 o q) ((contrEquiv1 dot_S16x3_S3x32768_S16x32768_1_0_0_1_n_n 3 rfl rfl).symm k) = ix2 k q := funext fun a => Fin.ext (by
    match a with
    | ⟨0, _⟩ => exact (rhs1_0 _ _).trans hk
    | ⟨1, _⟩ => exact rhs1_1 _ _)
  rw [el, er]

/-! ### Layer 2: [32, 16] into [16, 32768] -/

theorem lhs2_0 (i : S32x32768.Idx) (q : dot_S32x16_S16x32768_S32x32768_1_0_0_1_n_n.contr.Idx) :
    (dot_S32x16_S16x32768_S32x32768_1_0_0_1_n_n.lhsIdx i q 0).val = (i 0).val := by
  unfold DotDims.lhsIdx
  rw [dif_neg (show ¬(0 : Fin S32x16.rank) ∈ dot_S32x16_S16x32768_S32x32768_1_0_0_1_n_n.lhsBatch by decide), dif_pos (show (0 : Fin S32x16.rank) ∈ dot_S32x16_S16x32768_S32x32768_1_0_0_1_n_n.lhsNonContracting by decide)]
  rfl
theorem lhs2_1 (i : S32x32768.Idx) (q : dot_S32x16_S16x32768_S32x32768_1_0_0_1_n_n.contr.Idx) :
    (dot_S32x16_S16x32768_S32x32768_1_0_0_1_n_n.lhsIdx i q 1).val = (q ⟨0, by decide⟩).val :=
  dot_S32x16_S16x32768_S32x32768_1_0_0_1_n_n.lhsIdx_val_of_single rfl i q
theorem rhs2_0 (i : S32x32768.Idx) (q : dot_S32x16_S16x32768_S32x32768_1_0_0_1_n_n.contr.Idx) :
    (dot_S32x16_S16x32768_S32x32768_1_0_0_1_n_n.rhsIdx i q 0).val = (q ⟨0, by decide⟩).val :=
  dot_S32x16_S16x32768_S32x32768_1_0_0_1_n_n.rhsIdx_val_of_single rfl i q
theorem rhs2_1 (i : S32x32768.Idx) (q : dot_S32x16_S16x32768_S32x32768_1_0_0_1_n_n.contr.Idx) :
    (dot_S32x16_S16x32768_S32x32768_1_0_0_1_n_n.rhsIdx i q 1).val = (i 1).val := by
  unfold DotDims.rhsIdx
  rw [dif_neg (show ¬(1 : Fin S16x32768.rank) ∈ dot_S32x16_S16x32768_S32x32768_1_0_0_1_n_n.rhsBatch by decide), dif_pos (show (1 : Fin S16x32768.rank) ∈ dot_S32x16_S16x32768_S32x32768_1_0_0_1_n_n.rhsNonContracting by decide)]
  rfl

theorem mm2 (w : FVec Ideal S32x16 .bf16) (x : FVec Ideal S16x32768 .bf16) (o : Fin 32) (q : Fin 32768) :
    matmul (F := Ideal) dot_S32x16_S16x32768_S32x32768_1_0_0_1_n_n none w x (constant (F := Ideal) S32x32768 .f32 0x00000000#32) (ix2 o q)
      = ∑ k : Fin 16, w (ix2 o k) * x (ix2 k q) := by
  simp only [matmul]
  rw [Ideal.matmul_constant_zero_apply, ← Equiv.sum_comp (contrEquiv1 dot_S32x16_S16x32768_S32x32768_1_0_0_1_n_n 16 rfl rfl).symm]
  refine Finset.sum_congr rfl fun k _ => ?_
  have hk := contrEquiv1_symm_val dot_S32x16_S16x32768_S32x32768_1_0_0_1_n_n 16 rfl rfl k
  have el : dot_S32x16_S16x32768_S32x32768_1_0_0_1_n_n.lhsIdx (ix2 o q) ((contrEquiv1 dot_S32x16_S16x32768_S32x32768_1_0_0_1_n_n 16 rfl rfl).symm k) = ix2 o k := funext fun a => Fin.ext (by
    match a with
    | ⟨0, _⟩ => exact lhs2_0 _ _
    | ⟨1, _⟩ => exact (lhs2_1 _ _).trans hk)
  have er : dot_S32x16_S16x32768_S32x32768_1_0_0_1_n_n.rhsIdx (ix2 o q) ((contrEquiv1 dot_S32x16_S16x32768_S32x32768_1_0_0_1_n_n 16 rfl rfl).symm k) = ix2 k q := funext fun a => Fin.ext (by
    match a with
    | ⟨0, _⟩ => exact (rhs2_0 _ _).trans hk
    | ⟨1, _⟩ => exact rhs2_1 _ _)
  rw [el, er]

/-! ### Layer 3: [64, 32] into [32, 32768] -/

theorem lhs3_0 (i : S64x32768.Idx) (q : dot_S64x32_S32x32768_S64x32768_1_0_0_1_n_n.contr.Idx) :
    (dot_S64x32_S32x32768_S64x32768_1_0_0_1_n_n.lhsIdx i q 0).val = (i 0).val := by
  unfold DotDims.lhsIdx
  rw [dif_neg (show ¬(0 : Fin S64x32.rank) ∈ dot_S64x32_S32x32768_S64x32768_1_0_0_1_n_n.lhsBatch by decide), dif_pos (show (0 : Fin S64x32.rank) ∈ dot_S64x32_S32x32768_S64x32768_1_0_0_1_n_n.lhsNonContracting by decide)]
  rfl
theorem lhs3_1 (i : S64x32768.Idx) (q : dot_S64x32_S32x32768_S64x32768_1_0_0_1_n_n.contr.Idx) :
    (dot_S64x32_S32x32768_S64x32768_1_0_0_1_n_n.lhsIdx i q 1).val = (q ⟨0, by decide⟩).val :=
  dot_S64x32_S32x32768_S64x32768_1_0_0_1_n_n.lhsIdx_val_of_single rfl i q
theorem rhs3_0 (i : S64x32768.Idx) (q : dot_S64x32_S32x32768_S64x32768_1_0_0_1_n_n.contr.Idx) :
    (dot_S64x32_S32x32768_S64x32768_1_0_0_1_n_n.rhsIdx i q 0).val = (q ⟨0, by decide⟩).val :=
  dot_S64x32_S32x32768_S64x32768_1_0_0_1_n_n.rhsIdx_val_of_single rfl i q
theorem rhs3_1 (i : S64x32768.Idx) (q : dot_S64x32_S32x32768_S64x32768_1_0_0_1_n_n.contr.Idx) :
    (dot_S64x32_S32x32768_S64x32768_1_0_0_1_n_n.rhsIdx i q 1).val = (i 1).val := by
  unfold DotDims.rhsIdx
  rw [dif_neg (show ¬(1 : Fin S32x32768.rank) ∈ dot_S64x32_S32x32768_S64x32768_1_0_0_1_n_n.rhsBatch by decide), dif_pos (show (1 : Fin S32x32768.rank) ∈ dot_S64x32_S32x32768_S64x32768_1_0_0_1_n_n.rhsNonContracting by decide)]
  rfl

theorem mm3 (w : FVec Ideal S64x32 .bf16) (x : FVec Ideal S32x32768 .bf16) (o : Fin 64) (q : Fin 32768) :
    matmul (F := Ideal) dot_S64x32_S32x32768_S64x32768_1_0_0_1_n_n none w x (constant (F := Ideal) S64x32768 .f32 0x00000000#32) (ix2 o q)
      = ∑ k : Fin 32, w (ix2 o k) * x (ix2 k q) := by
  simp only [matmul]
  rw [Ideal.matmul_constant_zero_apply, ← Equiv.sum_comp (contrEquiv1 dot_S64x32_S32x32768_S64x32768_1_0_0_1_n_n 32 rfl rfl).symm]
  refine Finset.sum_congr rfl fun k _ => ?_
  have hk := contrEquiv1_symm_val dot_S64x32_S32x32768_S64x32768_1_0_0_1_n_n 32 rfl rfl k
  have el : dot_S64x32_S32x32768_S64x32768_1_0_0_1_n_n.lhsIdx (ix2 o q) ((contrEquiv1 dot_S64x32_S32x32768_S64x32768_1_0_0_1_n_n 32 rfl rfl).symm k) = ix2 o k := funext fun a => Fin.ext (by
    match a with
    | ⟨0, _⟩ => exact lhs3_0 _ _
    | ⟨1, _⟩ => exact (lhs3_1 _ _).trans hk)
  have er : dot_S64x32_S32x32768_S64x32768_1_0_0_1_n_n.rhsIdx (ix2 o q) ((contrEquiv1 dot_S64x32_S32x32768_S64x32768_1_0_0_1_n_n 32 rfl rfl).symm k) = ix2 k q := funext fun a => Fin.ext (by
    match a with
    | ⟨0, _⟩ => exact (rhs3_0 _ _).trans hk
    | ⟨1, _⟩ => exact rhs3_1 _ _)
  rw [el, er]

/-! ### Layer 4: [32, 64] into [64, 32768] -/

theorem lhs4_0 (i : S32x32768.Idx) (q : dot_S32x64_S64x32768_S32x32768_1_0_0_1_n_n.contr.Idx) :
    (dot_S32x64_S64x32768_S32x32768_1_0_0_1_n_n.lhsIdx i q 0).val = (i 0).val := by
  unfold DotDims.lhsIdx
  rw [dif_neg (show ¬(0 : Fin S32x64.rank) ∈ dot_S32x64_S64x32768_S32x32768_1_0_0_1_n_n.lhsBatch by decide), dif_pos (show (0 : Fin S32x64.rank) ∈ dot_S32x64_S64x32768_S32x32768_1_0_0_1_n_n.lhsNonContracting by decide)]
  rfl
theorem lhs4_1 (i : S32x32768.Idx) (q : dot_S32x64_S64x32768_S32x32768_1_0_0_1_n_n.contr.Idx) :
    (dot_S32x64_S64x32768_S32x32768_1_0_0_1_n_n.lhsIdx i q 1).val = (q ⟨0, by decide⟩).val :=
  dot_S32x64_S64x32768_S32x32768_1_0_0_1_n_n.lhsIdx_val_of_single rfl i q
theorem rhs4_0 (i : S32x32768.Idx) (q : dot_S32x64_S64x32768_S32x32768_1_0_0_1_n_n.contr.Idx) :
    (dot_S32x64_S64x32768_S32x32768_1_0_0_1_n_n.rhsIdx i q 0).val = (q ⟨0, by decide⟩).val :=
  dot_S32x64_S64x32768_S32x32768_1_0_0_1_n_n.rhsIdx_val_of_single rfl i q
theorem rhs4_1 (i : S32x32768.Idx) (q : dot_S32x64_S64x32768_S32x32768_1_0_0_1_n_n.contr.Idx) :
    (dot_S32x64_S64x32768_S32x32768_1_0_0_1_n_n.rhsIdx i q 1).val = (i 1).val := by
  unfold DotDims.rhsIdx
  rw [dif_neg (show ¬(1 : Fin S64x32768.rank) ∈ dot_S32x64_S64x32768_S32x32768_1_0_0_1_n_n.rhsBatch by decide), dif_pos (show (1 : Fin S64x32768.rank) ∈ dot_S32x64_S64x32768_S32x32768_1_0_0_1_n_n.rhsNonContracting by decide)]
  rfl

theorem mm4 (w : FVec Ideal S32x64 .bf16) (x : FVec Ideal S64x32768 .bf16) (o : Fin 32) (q : Fin 32768) :
    matmul (F := Ideal) dot_S32x64_S64x32768_S32x32768_1_0_0_1_n_n none w x (constant (F := Ideal) S32x32768 .f32 0x00000000#32) (ix2 o q)
      = ∑ k : Fin 64, w (ix2 o k) * x (ix2 k q) := by
  simp only [matmul]
  rw [Ideal.matmul_constant_zero_apply, ← Equiv.sum_comp (contrEquiv1 dot_S32x64_S64x32768_S32x32768_1_0_0_1_n_n 64 rfl rfl).symm]
  refine Finset.sum_congr rfl fun k _ => ?_
  have hk := contrEquiv1_symm_val dot_S32x64_S64x32768_S32x32768_1_0_0_1_n_n 64 rfl rfl k
  have el : dot_S32x64_S64x32768_S32x32768_1_0_0_1_n_n.lhsIdx (ix2 o q) ((contrEquiv1 dot_S32x64_S64x32768_S32x32768_1_0_0_1_n_n 64 rfl rfl).symm k) = ix2 o k := funext fun a => Fin.ext (by
    match a with
    | ⟨0, _⟩ => exact lhs4_0 _ _
    | ⟨1, _⟩ => exact (lhs4_1 _ _).trans hk)
  have er : dot_S32x64_S64x32768_S32x32768_1_0_0_1_n_n.rhsIdx (ix2 o q) ((contrEquiv1 dot_S32x64_S64x32768_S32x32768_1_0_0_1_n_n 64 rfl rfl).symm k) = ix2 k q := funext fun a => Fin.ext (by
    match a with
    | ⟨0, _⟩ => exact (rhs4_0 _ _).trans hk
    | ⟨1, _⟩ => exact rhs4_1 _ _)
  rw [el, er]

/-! ### Layer 5: [16, 32] into [32, 32768] -/

theorem lhs5_0 (i : S16x32768.Idx) (q : dot_S16x32_S32x32768_S16x32768_1_0_0_1_n_n.contr.Idx) :
    (dot_S16x32_S32x32768_S16x32768_1_0_0_1_n_n.lhsIdx i q 0).val = (i 0).val := by
  unfold DotDims.lhsIdx
  rw [dif_neg (show ¬(0 : Fin S16x32.rank) ∈ dot_S16x32_S32x32768_S16x32768_1_0_0_1_n_n.lhsBatch by decide), dif_pos (show (0 : Fin S16x32.rank) ∈ dot_S16x32_S32x32768_S16x32768_1_0_0_1_n_n.lhsNonContracting by decide)]
  rfl
theorem lhs5_1 (i : S16x32768.Idx) (q : dot_S16x32_S32x32768_S16x32768_1_0_0_1_n_n.contr.Idx) :
    (dot_S16x32_S32x32768_S16x32768_1_0_0_1_n_n.lhsIdx i q 1).val = (q ⟨0, by decide⟩).val :=
  dot_S16x32_S32x32768_S16x32768_1_0_0_1_n_n.lhsIdx_val_of_single rfl i q
theorem rhs5_0 (i : S16x32768.Idx) (q : dot_S16x32_S32x32768_S16x32768_1_0_0_1_n_n.contr.Idx) :
    (dot_S16x32_S32x32768_S16x32768_1_0_0_1_n_n.rhsIdx i q 0).val = (q ⟨0, by decide⟩).val :=
  dot_S16x32_S32x32768_S16x32768_1_0_0_1_n_n.rhsIdx_val_of_single rfl i q
theorem rhs5_1 (i : S16x32768.Idx) (q : dot_S16x32_S32x32768_S16x32768_1_0_0_1_n_n.contr.Idx) :
    (dot_S16x32_S32x32768_S16x32768_1_0_0_1_n_n.rhsIdx i q 1).val = (i 1).val := by
  unfold DotDims.rhsIdx
  rw [dif_neg (show ¬(1 : Fin S32x32768.rank) ∈ dot_S16x32_S32x32768_S16x32768_1_0_0_1_n_n.rhsBatch by decide), dif_pos (show (1 : Fin S32x32768.rank) ∈ dot_S16x32_S32x32768_S16x32768_1_0_0_1_n_n.rhsNonContracting by decide)]
  rfl

theorem mm5 (w : FVec Ideal S16x32 .bf16) (x : FVec Ideal S32x32768 .bf16) (o : Fin 16) (q : Fin 32768) :
    matmul (F := Ideal) dot_S16x32_S32x32768_S16x32768_1_0_0_1_n_n none w x (constant (F := Ideal) S16x32768 .f32 0x00000000#32) (ix2 o q)
      = ∑ k : Fin 32, w (ix2 o k) * x (ix2 k q) := by
  simp only [matmul]
  rw [Ideal.matmul_constant_zero_apply, ← Equiv.sum_comp (contrEquiv1 dot_S16x32_S32x32768_S16x32768_1_0_0_1_n_n 32 rfl rfl).symm]
  refine Finset.sum_congr rfl fun k _ => ?_
  have hk := contrEquiv1_symm_val dot_S16x32_S32x32768_S16x32768_1_0_0_1_n_n 32 rfl rfl k
  have el : dot_S16x32_S32x32768_S16x32768_1_0_0_1_n_n.lhsIdx (ix2 o q) ((contrEquiv1 dot_S16x32_S32x32768_S16x32768_1_0_0_1_n_n 32 rfl rfl).symm k) = ix2 o k := funext fun a => Fin.ext (by
    match a with
    | ⟨0, _⟩ => exact lhs5_0 _ _
    | ⟨1, _⟩ => exact (lhs5_1 _ _).trans hk)
  have er : dot_S16x32_S32x32768_S16x32768_1_0_0_1_n_n.rhsIdx (ix2 o q) ((contrEquiv1 dot_S16x32_S32x32768_S16x32768_1_0_0_1_n_n 32 rfl rfl).symm k) = ix2 k q := funext fun a => Fin.ext (by
    match a with
    | ⟨0, _⟩ => exact (rhs5_0 _ _).trans hk
    | ⟨1, _⟩ => exact rhs5_1 _ _)
  rw [el, er]

/-! ### Layer 6: [3, 16] into [16, 32768] -/

theorem lhs6_0 (i : S3x32768.Idx) (q : dot_S3x16_S16x32768_S3x32768_1_0_0_1_n_n.contr.Idx) :
    (dot_S3x16_S16x32768_S3x32768_1_0_0_1_n_n.lhsIdx i q 0).val = (i 0).val := by
  unfold DotDims.lhsIdx
  rw [dif_neg (show ¬(0 : Fin S3x16.rank) ∈ dot_S3x16_S16x32768_S3x32768_1_0_0_1_n_n.lhsBatch by decide), dif_pos (show (0 : Fin S3x16.rank) ∈ dot_S3x16_S16x32768_S3x32768_1_0_0_1_n_n.lhsNonContracting by decide)]
  rfl
theorem lhs6_1 (i : S3x32768.Idx) (q : dot_S3x16_S16x32768_S3x32768_1_0_0_1_n_n.contr.Idx) :
    (dot_S3x16_S16x32768_S3x32768_1_0_0_1_n_n.lhsIdx i q 1).val = (q ⟨0, by decide⟩).val :=
  dot_S3x16_S16x32768_S3x32768_1_0_0_1_n_n.lhsIdx_val_of_single rfl i q
theorem rhs6_0 (i : S3x32768.Idx) (q : dot_S3x16_S16x32768_S3x32768_1_0_0_1_n_n.contr.Idx) :
    (dot_S3x16_S16x32768_S3x32768_1_0_0_1_n_n.rhsIdx i q 0).val = (q ⟨0, by decide⟩).val :=
  dot_S3x16_S16x32768_S3x32768_1_0_0_1_n_n.rhsIdx_val_of_single rfl i q
theorem rhs6_1 (i : S3x32768.Idx) (q : dot_S3x16_S16x32768_S3x32768_1_0_0_1_n_n.contr.Idx) :
    (dot_S3x16_S16x32768_S3x32768_1_0_0_1_n_n.rhsIdx i q 1).val = (i 1).val := by
  unfold DotDims.rhsIdx
  rw [dif_neg (show ¬(1 : Fin S16x32768.rank) ∈ dot_S3x16_S16x32768_S3x32768_1_0_0_1_n_n.rhsBatch by decide), dif_pos (show (1 : Fin S16x32768.rank) ∈ dot_S3x16_S16x32768_S3x32768_1_0_0_1_n_n.rhsNonContracting by decide)]
  rfl

theorem mm6 (w : FVec Ideal S3x16 .bf16) (x : FVec Ideal S16x32768 .bf16) (o : Fin 3) (q : Fin 32768) :
    matmul (F := Ideal) dot_S3x16_S16x32768_S3x32768_1_0_0_1_n_n none w x (constant (F := Ideal) S3x32768 .f32 0x00000000#32) (ix2 o q)
      = ∑ k : Fin 16, w (ix2 o k) * x (ix2 k q) := by
  simp only [matmul]
  rw [Ideal.matmul_constant_zero_apply, ← Equiv.sum_comp (contrEquiv1 dot_S3x16_S16x32768_S3x32768_1_0_0_1_n_n 16 rfl rfl).symm]
  refine Finset.sum_congr rfl fun k _ => ?_
  have hk := contrEquiv1_symm_val dot_S3x16_S16x32768_S3x32768_1_0_0_1_n_n 16 rfl rfl k
  have el : dot_S3x16_S16x32768_S3x32768_1_0_0_1_n_n.lhsIdx (ix2 o q) ((contrEquiv1 dot_S3x16_S16x32768_S3x32768_1_0_0_1_n_n 16 rfl rfl).symm k) = ix2 o k := funext fun a => Fin.ext (by
    match a with
    | ⟨0, _⟩ => exact lhs6_0 _ _
    | ⟨1, _⟩ => exact (lhs6_1 _ _).trans hk)
  have er : dot_S3x16_S16x32768_S3x32768_1_0_0_1_n_n.rhsIdx (ix2 o q) ((contrEquiv1 dot_S3x16_S16x32768_S3x32768_1_0_0_1_n_n 16 rfl rfl).symm k) = ix2 k q := funext fun a => Fin.ext (by
    match a with
    | ⟨0, _⟩ => exact (rhs6_0 _ _).trans hk
    | ⟨1, _⟩ => exact rhs6_1 _ _)
  rw [el, er]

/-! ## One layer at an entry

The pre-activation of a layer at entry (o, q) is the specification's affine map of column q of the layer's input,
at output o. The kernel forms weight × activation and the specification activation × weight: the terms agree by
commutativity of the product on the extended reals. The casts to the same shape are identities, and so is the
narrowing of the format on ideal values. Layer 1 reads the block of coordinates; every later layer reads the
hyperbolic tangent of the previous layer's pre-activation `u`. -/

theorem lay1 (w : FVec Ideal S16x3 .bf16) (c : FVec Ideal S16x1 .f32) (x : FVec Ideal S3x32768 .f32) (o : Fin 16) (q : Fin 32768) :
    addf (matmul (F := Ideal) dot_S16x3_S3x32768_S16x32768_1_0_0_1_n_n none (shapeCast S16x3 w shapeCasts_S16x3_S16x3)
        (truncf .bf16 (shapeCast S3x32768 x shapeCasts_S3x32768_S3x32768) bitsLt_bf16_f32) (constant (F := Ideal) S16x32768 .f32 0x00000000#32))
      (broadcastTo S16x32768 (shapeCast S16x1 c shapeCasts_S16x1_S16x1) broadcasts_S16x1_S16x32768) (ix2 o q)
    = Cert.Mlp.affine (fun k o => w (ix2 o k)) (fun o => c (ix2 o 0)) (fun k => x (ix2 k q)) o := by
  rw [addf_apply, shapeCast_self, shapeCast_self, shapeCast_self, mm1, bias16]
  unfold Cert.Mlp.affine
  exact congrArg (· + c (ix2 o 0)) (Finset.sum_congr rfl fun k _ => mul_comm _ _)

theorem lay2 (w : FVec Ideal S32x16 .bf16) (c : FVec Ideal S32x1 .f32) (u : FVec Ideal S16x32768 .f32) (o : Fin 32) (q : Fin 32768) :
    addf (matmul (F := Ideal) dot_S32x16_S16x32768_S32x32768_1_0_0_1_n_n none (shapeCast S32x16 w shapeCasts_S32x16_S32x16)
        (truncf .bf16 (tanh u) bitsLt_bf16_f32) (constant (F := Ideal) S32x32768 .f32 0x00000000#32))
      (broadcastTo S32x32768 (shapeCast S32x1 c shapeCasts_S32x1_S32x1) broadcasts_S32x1_S32x32768) (ix2 o q)
    = Cert.Mlp.affine (fun k o => w (ix2 o k)) (fun o => c (ix2 o 0)) (Cert.Mlp.act fun k => u (ix2 k q)) o := by
  rw [addf_apply, shapeCast_self, shapeCast_self, mm2, bias32]
  unfold Cert.Mlp.affine Cert.Mlp.act
  exact congrArg (· + c (ix2 o 0)) (Finset.sum_congr rfl fun k _ => mul_comm _ _)

theorem lay3 (w : FVec Ideal S64x32 .bf16) (c : FVec Ideal S64x1 .f32) (u : FVec Ideal S32x32768 .f32) (o : Fin 64) (q : Fin 32768) :
    addf (matmul (F := Ideal) dot_S64x32_S32x32768_S64x32768_1_0_0_1_n_n none (shapeCast S64x32 w shapeCasts_S64x32_S64x32)
        (truncf .bf16 (tanh u) bitsLt_bf16_f32) (constant (F := Ideal) S64x32768 .f32 0x00000000#32))
      (broadcastTo S64x32768 (shapeCast S64x1 c shapeCasts_S64x1_S64x1) broadcasts_S64x1_S64x32768) (ix2 o q)
    = Cert.Mlp.affine (fun k o => w (ix2 o k)) (fun o => c (ix2 o 0)) (Cert.Mlp.act fun k => u (ix2 k q)) o := by
  rw [addf_apply, shapeCast_self, shapeCast_self, mm3, bias64]
  unfold Cert.Mlp.affine Cert.Mlp.act
  exact congrArg (· + c (ix2 o 0)) (Finset.sum_congr rfl fun k _ => mul_comm _ _)

theorem lay4 (w : FVec Ideal S32x64 .bf16) (c : FVec Ideal S32x1 .f32) (u : FVec Ideal S64x32768 .f32) (o : Fin 32) (q : Fin 32768) :
    addf (matmul (F := Ideal) dot_S32x64_S64x32768_S32x32768_1_0_0_1_n_n none (shapeCast S32x64 w shapeCasts_S32x64_S32x64)
        (truncf .bf16 (tanh u) bitsLt_bf16_f32) (constant (F := Ideal) S32x32768 .f32 0x00000000#32))
      (broadcastTo S32x32768 (shapeCast S32x1 c shapeCasts_S32x1_S32x1) broadcasts_S32x1_S32x32768) (ix2 o q)
    = Cert.Mlp.affine (fun k o => w (ix2 o k)) (fun o => c (ix2 o 0)) (Cert.Mlp.act fun k => u (ix2 k q)) o := by
  rw [addf_apply, shapeCast_self, shapeCast_self, mm4, bias32]
  unfold Cert.Mlp.affine Cert.Mlp.act
  exact congrArg (· + c (ix2 o 0)) (Finset.sum_congr rfl fun k _ => mul_comm _ _)

theorem lay5 (w : FVec Ideal S16x32 .bf16) (c : FVec Ideal S16x1 .f32) (u : FVec Ideal S32x32768 .f32) (o : Fin 16) (q : Fin 32768) :
    addf (matmul (F := Ideal) dot_S16x32_S32x32768_S16x32768_1_0_0_1_n_n none (shapeCast S16x32 w shapeCasts_S16x32_S16x32)
        (truncf .bf16 (tanh u) bitsLt_bf16_f32) (constant (F := Ideal) S16x32768 .f32 0x00000000#32))
      (broadcastTo S16x32768 (shapeCast S16x1 c shapeCasts_S16x1_S16x1) broadcasts_S16x1_S16x32768) (ix2 o q)
    = Cert.Mlp.affine (fun k o => w (ix2 o k)) (fun o => c (ix2 o 0)) (Cert.Mlp.act fun k => u (ix2 k q)) o := by
  rw [addf_apply, shapeCast_self, shapeCast_self, mm5, bias16]
  unfold Cert.Mlp.affine Cert.Mlp.act
  exact congrArg (· + c (ix2 o 0)) (Finset.sum_congr rfl fun k _ => mul_comm _ _)

theorem lay6 (w : FVec Ideal S3x16 .bf16) (c : FVec Ideal S3x1 .f32) (u : FVec Ideal S16x32768 .f32) (o : Fin 3) (q : Fin 32768) :
    addf (matmul (F := Ideal) dot_S3x16_S16x32768_S3x32768_1_0_0_1_n_n none (shapeCast S3x16 w shapeCasts_S3x16_S3x16)
        (truncf .bf16 (tanh u) bitsLt_bf16_f32) (constant (F := Ideal) S3x32768 .f32 0x00000000#32))
      (broadcastTo S3x32768 (shapeCast S3x1 c shapeCasts_S3x1_S3x1) broadcasts_S3x1_S3x32768) (ix2 o q)
    = Cert.Mlp.affine (fun k o => w (ix2 o k)) (fun o => c (ix2 o 0)) (Cert.Mlp.act fun k => u (ix2 k q)) o := by
  rw [addf_apply, shapeCast_self, shapeCast_self, mm6, bias3]
  unfold Cert.Mlp.affine Cert.Mlp.act
  exact congrArg (· + c (ix2 o 0)) (Finset.sum_congr rfl fun k _ => mul_comm _ _)

/-! ## The two payloads and their composition -/

/-- The first payload (layers 1 to 4, up to the pre-activation of layer 4) at entry (o, q): four affine layers on
    column q of the block, the hyperbolic tangent between them. -/
theorem pay2_apply (X0 : Vec Ideal S3x32768 .f32) (w1 : Vec Ideal S16x3 .bf16) (c1 : Vec Ideal S16x1 .f32)
    (w2 : Vec Ideal S32x16 .bf16) (c2 : Vec Ideal S32x1 .f32) (w3 : Vec Ideal S64x32 .bf16) (c3 : Vec Ideal S64x1 .f32)
    (w4 : Vec Ideal S32x64 .bf16) (c4 : Vec Ideal S32x1 .f32) (o : Fin 32) (q : Fin 32768) :
    k0_pay2 (F := Ideal) X0 w1 c1 w2 c2 w3 c3 w4 c4 (ix2 o q)
      = Cert.Mlp.affine (fun k o => w4 (ix2 o k)) (fun o => c4 (ix2 o 0)) (Cert.Mlp.act
          (Cert.Mlp.affine (fun k o => w3 (ix2 o k)) (fun o => c3 (ix2 o 0)) (Cert.Mlp.act
            (Cert.Mlp.affine (fun k o => w2 (ix2 o k)) (fun o => c2 (ix2 o 0)) (Cert.Mlp.act
              (Cert.Mlp.affine (fun k o => w1 (ix2 o k)) (fun o => c1 (ix2 o 0)) (fun k => X0 (ix2 k q)))))))) o := by
  unfold k0_pay2
  refine (lay4 w4 c4 _ o q).trans ?_
  refine congrArg (fun x => Cert.Mlp.affine _ _ (Cert.Mlp.act x) o) (funext fun k3 => ?_)
  refine (lay3 w3 c3 _ k3 q).trans ?_
  refine congrArg (fun x => Cert.Mlp.affine _ _ (Cert.Mlp.act x) k3) (funext fun k2 => ?_)
  refine (lay2 w2 c2 _ k2 q).trans ?_
  refine congrArg (fun x => Cert.Mlp.affine _ _ (Cert.Mlp.act x) k2) (funext fun k1 => ?_)
  exact lay1 w1 c1 X0 k1 q

/-- The second payload (the hyperbolic tangent of its input, then layers 5 and 6) at entry (p, q), over any
    [32, 32768] pre-activation `u`. -/
theorem pay1_apply (u : FVec Ideal S32x32768 .f32) (w5 : Vec Ideal S16x32 .bf16) (c5 : Vec Ideal S16x1 .f32)
    (wl : Vec Ideal S3x16 .bf16) (cl : Vec Ideal S3x1 .f32) (p : Fin 3) (q : Fin 32768) :
    k0_pay1 (F := Ideal) u w5 c5 wl cl (ix2 p q)
      = Cert.Mlp.affine (fun k o => wl (ix2 o k)) (fun o => cl (ix2 o 0)) (Cert.Mlp.act
          (Cert.Mlp.affine (fun k o => w5 (ix2 o k)) (fun o => c5 (ix2 o 0)) (Cert.Mlp.act fun k => u (ix2 k q)))) p := by
  unfold k0_pay1
  refine (lay6 wl cl _ p q).trans ?_
  refine congrArg (fun x => Cert.Mlp.affine _ _ (Cert.Mlp.act x) p) (funext fun k5 => ?_)
  exact lay5 w5 c5 u k5 q

/-- The stored value at entry (p, q): output feature p of the network on column q of the block of coordinates. -/
theorem pay_apply (X0 : Vec Ideal S3x32768 .f32) (w1 : Vec Ideal S16x3 .bf16) (c1 : Vec Ideal S16x1 .f32) (w2 : Vec Ideal S32x16 .bf16) (c2 : Vec Ideal S32x1 .f32) (w3 : Vec Ideal S64x32 .bf16) (c3 : Vec Ideal S64x1 .f32) (w4 : Vec Ideal S32x64 .bf16) (c4 : Vec Ideal S32x1 .f32) (w5 : Vec Ideal S16x32 .bf16) (c5 : Vec Ideal S16x1 .f32) (wl : Vec Ideal S3x16 .bf16) (cl : Vec Ideal S3x1 .f32) (p : Fin 3) (q : Fin 32768) :
    k0_pay1 (F := Ideal) (k0_pay2 (F := Ideal) X0 w1 c1 w2 c2 w3 c3 w4 c4) w5 c5 wl cl (ix2 p q)
      = Cert.Mlp.net (fun k o => w1 (ix2 o k)) (fun o => c1 (ix2 o 0)) (fun k o => w2 (ix2 o k)) (fun o => c2 (ix2 o 0)) (fun k o => w3 (ix2 o k)) (fun o => c3 (ix2 o 0)) (fun k o => w4 (ix2 o k)) (fun o => c4 (ix2 o 0)) (fun k o => w5 (ix2 o k)) (fun o => c5 (ix2 o 0)) (fun k o => wl (ix2 o k)) (fun o => cl (ix2 o 0)) (fun k => X0 (ix2 k q)) p := by
  refine (pay1_apply _ w5 c5 wl cl p q).trans ?_
  unfold Cert.Mlp.net
  refine congrArg (fun x => Cert.Mlp.affine _ _ (Cert.Mlp.act (Cert.Mlp.affine _ _ (Cert.Mlp.act x))) p) (funext fun k => ?_)
  exact pay2_apply X0 w1 c1 w2 c2 w3 c3 w4 c4 k q

end Cert.KernelIdeal.PayValue

end
-- ==== Proof.Local.lean ====
/-
  The idealized kernel's result at an entry, and its independence of what lies past the array's end.

  Over the extended reals every step of the body acts on each column of the coordinate block by itself, so entry
  (p, q) of what the body stores is output feature p of the network on column q of the block. At the last grid
  point the block's buffer holds contents nothing names on the columns past the array's end; the result's columns
  inside the array do not depend on them.
-/
import proofs.«413920_j11433202942399_3_alg».proof.Proof.Data
import proofs.«413920_j11433202942399_3_alg».proof.Proof.KernelPayload

set_option maxRecDepth 16384

noncomputable section

namespace Cert.KernelIdeal.Exact

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## What the body stores, at an entry -/

/-- The body's one store covers the result's buffer, and its loads read the inputs' buffers whole: what it leaves is
    the six layers' term of the buffers' contents. -/
theorem outOf_eq {F : FTy → Type} [FloatOps F] (x0 : Vec F S3x32768 .f32) (x1 : Vec F S16x3 .bf16) (x2 : Vec F S16x1 .f32) (x3 : Vec F S32x16 .bf16) (x4 : Vec F S32x1 .f32) (x5 : Vec F S64x32 .bf16) (x6 : Vec F S64x1 .f32) (x7 : Vec F S32x64 .bf16) (x8 : Vec F S32x1 .f32) (x9 : Vec F S16x32 .bf16) (x10 : Vec F S16x1 .f32) (x11 : Vec F S3x16 .bf16) (x12 : Vec F S3x1 .f32) :
    outOf x0 x1 x2 x3 x4 x5 x6 x7 x8 x9 x10 x11 x12 = k0_pay1 (k0_pay2 x0 x1 x2 x3 x4 x5 x6 x7 x8) x9 x10 x11 x12 := by
  have hz : (![0, 0] : Fin 2 → Nat) = fun _ => 0 := funext fun a => by fin_cases a <;> rfl
  unfold outOf
  rw [View.canon_unit_zero hz]
  simp only [View.ld_unit_zero (S := S3x32768) hz, View.ld_unit_zero (S := S16x3) hz, View.ld_unit_zero (S := S16x1) hz, View.ld_unit_zero (S := S32x16) hz, View.ld_unit_zero (S := S32x1) hz, View.ld_unit_zero (S := S64x32) hz, View.ld_unit_zero (S := S64x1) hz, View.ld_unit_zero (S := S32x64) hz, View.ld_unit_zero (S := S16x32) hz, View.ld_unit_zero (S := S3x16) hz, View.ld_unit_zero (S := S3x1) hz]

/-- Entry (p, q) of what the body stores is output feature p of the network on column q of the coordinate block's
    buffer, the weights read transposed and each bias from its one column. -/
theorem outOf_apply (x0 : Vec Ideal S3x32768 .f32) (x1 : Vec Ideal S16x3 .bf16) (x2 : Vec Ideal S16x1 .f32) (x3 : Vec Ideal S32x16 .bf16) (x4 : Vec Ideal S32x1 .f32) (x5 : Vec Ideal S64x32 .bf16) (x6 : Vec Ideal S64x1 .f32) (x7 : Vec Ideal S32x64 .bf16) (x8 : Vec Ideal S32x1 .f32) (x9 : Vec Ideal S16x32 .bf16) (x10 : Vec Ideal S16x1 .f32) (x11 : Vec Ideal S3x16 .bf16) (x12 : Vec Ideal S3x1 .f32) (p : Fin 3) (q : Fin 32768) :
    outOf (F := Ideal) x0 x1 x2 x3 x4 x5 x6 x7 x8 x9 x10 x11 x12 (ix2 p q) = Cert.Mlp.net (fun k o => x1 (ix2 o k)) (fun o => x2 (ix2 o 0)) (fun k o => x3 (ix2 o k)) (fun o => x4 (ix2 o 0)) (fun k o => x5 (ix2 o k)) (fun o => x6 (ix2 o 0)) (fun k o => x7 (ix2 o k)) (fun o => x8 (ix2 o 0)) (fun k o => x9 (ix2 o k)) (fun o => x10 (ix2 o 0)) (fun k o => x11 (ix2 o k)) (fun o => x12 (ix2 o 0)) (fun k => x0 (ix2 k q)) p := by
  rw [outOf_eq]
  exact Cert.KernelIdeal.PayValue.pay_apply x0 x1 x2 x3 x4 x5 x6 x7 x8 x9 x10 x11 x12 p q

variable (m : (ℓ : Loc nD τ sig) → Buf (Elt Ideal) ℓ) (ρ : Dev nD → PrngReg)

/-! ## The columns inside the array do not see the filler -/

/-- At every point the coordinate block's transfers move all three rows, and as many columns as the result's. -/
theorem moved_sizes : ∀ t : Fin cfg0.N, win0_0.xsize (grid0.coords t) 0 = 3
    ∧ win0_0.xsize (grid0.coords t) 1 = win0_13.xsize (grid0.coords t) 1 :=
  (by decide +kernel : ∀ t : Fin grid0.N, win0_0.xsize (grid0.coords t) 0 = 3
    ∧ win0_0.xsize (grid0.coords t) 1 = win0_13.xsize (grid0.coords t) 1)

/-- On a column the fetch fills, a buffer filled from the block holds the block whatever the filler. -/
theorem fill_moved (i : grid0.Coords) (h0 : win0_0.xsize i 0 = 3) (h1 : win0_0.xsize i 1 = win0_13.xsize i 1)
    (g : (win0_0.xblock i).Idx → Elt Ideal .f32) (d d' : S3x32768.Idx → Elt Ideal .f32) (k : Fin 3) (q : Fin 32768)
    (hq : q.val < win0_13.xsize i 1) : win0_0.fill i d g (ix2 k q) = win0_0.fill i d' g (ix2 k q) := by
  have hmv : win0_0.moved i (ix2 k q) = true := (win0_0.moved_iff _ _).mpr fun a => by
    match a with
    | ⟨0, _⟩ => show k.val < win0_0.xsize i 0; rw [h0]; exact k.isLt
    | ⟨1, _⟩ => show q.val < win0_0.xsize i 1; rw [h1]; exact hq
  unfold Window.fill
  simp only [dif_pos hmv]

/-- The part of the result's buffer that is written back is the same whatever lay past the array's end in the
    coordinate block's buffer: a column of the result depends on the same column of the block only. Stated over
    any contents of the twelve weight and bias buffers. -/
theorem cut_outOf_of (i : grid0.Coords) (h0 : win0_0.xsize i 0 = 3) (h1 : win0_0.xsize i 1 = win0_13.xsize i 1)
    (g : (win0_0.xblock i).Idx → Elt Ideal .f32) (d d' : S3x32768.Idx → Elt Ideal .f32) (x1 : Vec Ideal S16x3 .bf16) (x2 : Vec Ideal S16x1 .f32) (x3 : Vec Ideal S32x16 .bf16) (x4 : Vec Ideal S32x1 .f32) (x5 : Vec Ideal S64x32 .bf16) (x6 : Vec Ideal S64x1 .f32) (x7 : Vec Ideal S32x64 .bf16) (x8 : Vec Ideal S32x1 .f32) (x9 : Vec Ideal S16x32 .bf16) (x10 : Vec Ideal S16x1 .f32) (x11 : Vec Ideal S3x16 .bf16) (x12 : Vec Ideal S3x1 .f32) :
    win0_13.cut i (outOf (F := Ideal) (win0_0.fill i d g) x1 x2 x3 x4 x5 x6 x7 x8 x9 x10 x11 x12) = win0_13.cut i (outOf (F := Ideal) (win0_0.fill i d' g) x1 x2 x3 x4 x5 x6 x7 x8 x9 x10 x11 x12) := by
  funext j
  have hj0 : (j 0).val < 3 := (win0_13.xinj i j 0).isLt
  have hj1 : (j 1).val < 32768 := (win0_13.xinj i j 1).isLt
  have hy : (win0_13.xinj i j : S3x32768.Idx) = ix2 (⟨(j 0).val, hj0⟩ : Fin 3) (⟨(j 1).val, hj1⟩ : Fin 32768) :=
    funext fun a => Fin.ext (by match a with | ⟨0, _⟩ => rfl | ⟨1, _⟩ => rfl)
  show outOf (F := Ideal) (win0_0.fill i d g) x1 x2 x3 x4 x5 x6 x7 x8 x9 x10 x11 x12 (win0_13.xinj i j) = outOf (F := Ideal) (win0_0.fill i d' g) x1 x2 x3 x4 x5 x6 x7 x8 x9 x10 x11 x12 (win0_13.xinj i j)
  rw [hy, outOf_apply, outOf_apply]
  exact congrFun (Cert.Mlp.net_congr _ _ _ _ _ _ _ _ _ _ _ _ fun k => fill_moved i h0 h1 g d d' k _ (j 1).isLt) _

end Cert.KernelIdeal.Exact

end
-- ==== Proof.HostSide.lean ====
/-
  What the kernel's arrays hold when its one region is entered, and what the line after the region does, read entry
  by entry over the extended reals.

  Before the region the program transposes the coordinate array ([1000000, 3] to [3, 1000000]: features along the
  rows, nodes along the columns), transposes each of the six weight matrices ([fan-in, fan-out] to
  [fan-out, fan-in]) and narrows it to the 16-bit format, and turns each of the six bias vectors into a one-column
  matrix ([n] to [n, 1]). Over the extended reals a change of format is the identity, so every one of these arrays
  is its argument re-indexed: entry (o, k) of a transposed matrix is entry (k, o) of the argument, and entry (o, 0)
  of a bias column is entry o of the bias vector. After the region the result ([3, 1000000]) is transposed back to
  [1000000, 3].
-/
import proofs.«413920_j11433202942399_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The two layout operations at an index -/

/-- The transpose of an `a × b` matrix, read at row `p` and column `q`, is the matrix at row `q` and column `p`:
    result axis 0 is source axis 1 and result axis 1 is source axis 0. -/
theorem transpose2_apply {a b : ℕ} {α : Type} (X : (⟨2, ![a, b]⟩ : Shape).Idx → α)
    (h : (⟨2, ![a, b]⟩ : Shape).Transposes [1, 0] ⟨2, ![b, a]⟩) (p : Fin b) (q : Fin a) :
    transpose (⟨2, ![b, a]⟩ : Shape) [1, 0] X h (ix2 p q) = X (ix2 q p) :=
  transpose_apply [1, 0] X h (ix2 p q) (ix2 q p) (fun d => match d with | ⟨0, _⟩ => rfl | ⟨1, _⟩ => rfl)

/-- A vector of length `n` recast as an `n × 1` column, read at row `o`, is the vector at `o`: both entries sit at
    row-major position `o` (`o * 1 + 0` in the column). -/
theorem column_apply {n : ℕ} {α : Type} (X : (⟨1, ![n]⟩ : Shape).Idx → α)
    (h : (⟨1, ![n]⟩ : Shape).ShapeCasts ⟨2, ![n, 1]⟩) (o : Fin n) :
    shapeCast (⟨2, ![n, 1]⟩ : Shape) X h (ix2 o 0) = X (ix1 o) := by
  refine shapeCast_apply X h (ix2 o 0) (ix1 o) ?_
  rw [Shape.rowMajor_val_two, Shape.rowMajor_val_one]
  show o.val = o.val * 1 + 0
  omega

/-! ## The coordinates -/

/-- Feature `k` of node `n` in the transposed coordinate array is entry `(n, k)` of the coordinates. -/
theorem V_x (c : Dev nD) (k : Fin 3) (n : Fin 1000000) :
    (V m c main_v0 : S3x1000000.Idx → EReal) (ix2 k n) = (m ((c : Thread nD τ).loc main_arg0) : S1000000x3.Idx → EReal) (ix2 n k) := by
  have e : (V m c main_v0 : S3x1000000.Idx → EReal)
      = (transpose S3x1000000 [1, 0] (m ((c : Thread nD τ).loc main_arg0) : S1000000x3.Idx → EReal) transposes_S1000000x3_S3x1000000_1_0 : FVec Ideal S3x1000000 .f32) := by
    show StableHlo.after hostOps0 (fun b => m (c, b)) (Proc.devRef .tc main_v0) = _
    after_results
  rw [e]
  exact transpose2_apply _ _ k n

/-! ## The weights: transposed, then narrowed (the identity over the extended reals) -/

/-- Entry `(o, k)` of the first layer's weights as the region reads them is entry `(k, o)` of the argument. -/
theorem V_w1 (c : Dev nD) (o : Fin 16) (k : Fin 3) :
    (V m c main_v2 : S16x3.Idx → EReal) (ix2 o k) = (m ((c : Thread nD τ).loc main_arg2) : S3x16.Idx → EReal) (ix2 k o) := by
  have e : (V m c main_v2 : S16x3.Idx → EReal)
      = (truncf (F := Ideal) .bf16 (transpose S16x3 [1, 0] (m ((c : Thread nD τ).loc main_arg2) : S3x16.Idx → EReal) transposes_S3x16_S16x3_1_0 : FVec Ideal S16x3 .f32) bitsLt_bf16_f32 : FVec Ideal S16x3 .bf16) := by
    show StableHlo.after hostOps0 (fun b => m (c, b)) (Proc.devRef .tc main_v2) = _
    after_results
  rw [e, truncf_apply]
  exact transpose2_apply _ _ o k

/-- Entry `(o, k)` of the second layer's weights as the region reads them is entry `(k, o)` of the argument. -/
theorem V_w2 (c : Dev nD) (o : Fin 32) (k : Fin 16) :
    (V m c main_v4 : S32x16.Idx → EReal) (ix2 o k) = (m ((c : Thread nD τ).loc main_arg4) : S16x32.Idx → EReal) (ix2 k o) := by
  have e : (V m c main_v4 : S32x16.Idx → EReal)
      = (truncf (F := Ideal) .bf16 (transpose S32x16 [1, 0] (m ((c : Thread nD τ).loc main_arg4) : S16x32.Idx → EReal) transposes_S16x32_S32x16_1_0 : FVec Ideal S32x16 .f32) bitsLt_bf16_f32 : FVec Ideal S32x16 .bf16) := by
    show StableHlo.after hostOps0 (fun b => m (c, b)) (Proc.devRef .tc main_v4) = _
    after_results
  rw [e, truncf_apply]
  exact transpose2_apply _ _ o k

/-- Entry `(o, k)` of the third layer's weights as the region reads them is entry `(k, o)` of the argument. -/
theorem V_w3 (c : Dev nD) (o : Fin 64) (k : Fin 32) :
    (V m c main_v6 : S64x32.Idx → EReal) (ix2 o k) = (m ((c : Thread nD τ).loc main_arg6) : S32x64.Idx → EReal) (ix2 k o) := by
  have e : (V m c main_v6 : S64x32.Idx → EReal)
      = (truncf (F := Ideal) .bf16 (transpose S64x32 [1, 0] (m ((c : Thread nD τ).loc main_arg6) : S32x64.Idx → EReal) transposes_S32x64_S64x32_1_0 : FVec Ideal S64x32 .f32) bitsLt_bf16_f32 : FVec Ideal S64x32 .bf16) := by
    show StableHlo.after hostOps0 (fun b => m (c, b)) (Proc.devRef .tc main_v6) = _
    after_results
  rw [e, truncf_apply]
  exact transpose2_apply _ _ o k

/-- Entry `(o, k)` of the fourth layer's weights as the region reads them is entry `(k, o)` of the argument. -/
theorem V_w4 (c : Dev nD) (o : Fin 32) (k : Fin 64) :
    (V m c main_v8 : S32x64.Idx → EReal) (ix2 o k) = (m ((c : Thread nD τ).loc main_arg8) : S64x32.Idx → EReal) (ix2 k o) := by
  have e : (V m c main_v8 : S32x64.Idx → EReal)
      = (truncf (F := Ideal) .bf16 (transpose S32x64 [1, 0] (m ((c : Thread nD τ).loc main_arg8) : S64x32.Idx → EReal) transposes_S64x32_S32x64_1_0 : FVec Ideal S32x64 .f32) bitsLt_bf16_f32 : FVec Ideal S32x64 .bf16) := by
    show StableHlo.after hostOps0 (fun b => m (c, b)) (Proc.devRef .tc main_v8) = _
    after_results
  rw [e, truncf_apply]
  exact transpose2_apply _ _ o k

/-- Entry `(o, k)` of the fifth layer's weights as the region reads them is entry `(k, o)` of the argument. -/
theorem V_w5 (c : Dev nD) (o : Fin 16) (k : Fin 32) :
    (V m c main_v10 : S16x32.Idx → EReal) (ix2 o k) = (m ((c : Thread nD τ).loc main_arg10) : S32x16.Idx → EReal) (ix2 k o) := by
  have e : (V m c main_v10 : S16x32.Idx → EReal)
      = (truncf (F := Ideal) .bf16 (transpose S16x32 [1, 0] (m ((c : Thread nD τ).loc main_arg10) : S32x16.Idx → EReal) transposes_S32x16_S16x32_1_0 : FVec Ideal S16x32 .f32) bitsLt_bf16_f32 : FVec Ideal S16x32 .bf16) := by
    show StableHlo.after hostOps0 (fun b => m (c, b)) (Proc.devRef .tc main_v10) = _
    after_results
  rw [e, truncf_apply]
  exact transpose2_apply _ _ o k

/-- Entry `(o, k)` of the last layer's weights as the region reads them is entry `(k, o)` of the argument. -/
theorem V_wl (c : Dev nD) (o : Fin 3) (k : Fin 16) :
    (V m c main_v12 : S3x16.Idx → EReal) (ix2 o k) = (m ((c : Thread nD τ).loc main_arg12) : S16x3.Idx → EReal) (ix2 k o) := by
  have e : (V m c main_v12 : S3x16.Idx → EReal)
      = (truncf (F := Ideal) .bf16 (transpose S3x16 [1, 0] (m ((c : Thread nD τ).loc main_arg12) : S16x3.Idx → EReal) transposes_S16x3_S3x16_1_0 : FVec Ideal S3x16 .f32) bitsLt_bf16_f32 : FVec Ideal S3x16 .bf16) := by
    show StableHlo.after hostOps0 (fun b => m (c, b)) (Proc.devRef .tc main_v12) = _
    after_results
  rw [e, truncf_apply]
  exact transpose2_apply _ _ o k

/-! ## The biases: each vector as a one-column matrix -/

/-- Row `o` of the first layer's bias column is entry `o` of the bias vector. -/
theorem V_b1 (c : Dev nD) (o : Fin 16) :
    (V m c main_v13 : S16x1.Idx → EReal) (ix2 o 0) = (m ((c : Thread nD τ).loc main_arg3) : S16.Idx → EReal) (ix1 o) := by
  have e : (V m c main_v13 : S16x1.Idx → EReal)
      = shapeCast S16x1 (m ((c : Thread nD τ).loc main_arg3) : S16.Idx → EReal) shapeCasts_S16_S16x1 := by
    show StableHlo.after hostOps0 (fun b => m (c, b)) (Proc.devRef .tc main_v13) = _
    after_results
    rfl
  rw [e]
  exact column_apply _ _ o

/-- Row `o` of the second layer's bias column is entry `o` of the bias vector. -/
theorem V_b2 (c : Dev nD) (o : Fin 32) :
    (V m c main_v14 : S32x1.Idx → EReal) (ix2 o 0) = (m ((c : Thread nD τ).loc main_arg5) : S32.Idx → EReal) (ix1 o) := by
  have e : (V m c main_v14 : S32x1.Idx → EReal)
      = shapeCast S32x1 (m ((c : Thread nD τ).loc main_arg5) : S32.Idx → EReal) shapeCasts_S32_S32x1 := by
    show StableHlo.after hostOps0 (fun b => m (c, b)) (Proc.devRef .tc main_v14) = _
    after_results
    rfl
  rw [e]
  exact column_apply _ _ o

/-- Row `o` of the third layer's bias column is entry `o` of the bias vector. -/
theorem V_b3 (c : Dev nD) (o : Fin 64) :
    (V m c main_v15 : S64x1.Idx → EReal) (ix2 o 0) = (m ((c : Thread nD τ).loc main_arg7) : S64.Idx → EReal) (ix1 o) := by
  have e : (V m c main_v15 : S64x1.Idx → EReal)
      = shapeCast S64x1 (m ((c : Thread nD τ).loc main_arg7) : S64.Idx → EReal) shapeCasts_S64_S64x1 := by
    show StableHlo.after hostOps0 (fun b => m (c, b)) (Proc.devRef .tc main_v15) = _
    after_results
    rfl
  rw [e]
  exact column_apply _ _ o

/-- Row `o` of the fourth layer's bias column is entry `o` of the bias vector. -/
theorem V_b4 (c : Dev nD) (o : Fin 32) :
    (V m c main_v16 : S32x1.Idx → EReal) (ix2 o 0) = (m ((c : Thread nD τ).loc main_arg9) : S32.Idx → EReal) (ix1 o) := by
  have e : (V m c main_v16 : S32x1.Idx → EReal)
      = shapeCast S32x1 (m ((c : Thread nD τ).loc main_arg9) : S32.Idx → EReal) shapeCasts_S32_S32x1 := by
    show StableHlo.after hostOps0 (fun b => m (c, b)) (Proc.devRef .tc main_v16) = _
    after_results
    rfl
  rw [e]
  exact column_apply _ _ o

/-- Row `o` of the fifth layer's bias column is entry `o` of the bias vector. -/
theorem V_b5 (c : Dev nD) (o : Fin 16) :
    (V m c main_v17 : S16x1.Idx → EReal) (ix2 o 0) = (m ((c : Thread nD τ).loc main_arg11) : S16.Idx → EReal) (ix1 o) := by
  have e : (V m c main_v17 : S16x1.Idx → EReal)
      = shapeCast S16x1 (m ((c : Thread nD τ).loc main_arg11) : S16.Idx → EReal) shapeCasts_S16_S16x1 := by
    show StableHlo.after hostOps0 (fun b => m (c, b)) (Proc.devRef .tc main_v17) = _
    after_results
    rfl
  rw [e]
  exact column_apply _ _ o

/-- Row `o` of the last layer's bias column is entry `o` of the bias vector. -/
theorem V_bl (c : Dev nD) (o : Fin 3) :
    (V m c main_v18 : S3x1.Idx → EReal) (ix2 o 0) = (m ((c : Thread nD τ).loc main_arg13) : S3.Idx → EReal) (ix1 o) := by
  have e : (V m c main_v18 : S3x1.Idx → EReal)
      = shapeCast S3x1 (m ((c : Thread nD τ).loc main_arg13) : S3.Idx → EReal) shapeCasts_S3_S3x1 := by
    show StableHlo.after hostOps0 (fun b => m (c, b)) (Proc.devRef .tc main_v18) = _
    after_results
    rfl
  rw [e]
  exact column_apply _ _ o

/-! ## The line after the region -/

/-- The result transposed back: feature `o` of node `n` is entry `(o, n)` of what the region wrote. -/
theorem tail_apply (X : S3x1000000.Idx → EReal) (n : Fin 1000000) (o : Fin 3) :
    transpose S1000000x3 [1, 0] X transposes_S3x1000000_S1000000x3_1_0 (ix2 n o) = X (ix2 o n) :=
  transpose2_apply X _ n o

end Cert.KernelIdeal.HostSide
-- ==== Proof.Exact.lean ====
/-
  The idealized kernel's result, point by point, and the run that names it.

  Over the extended reals every step of the body acts on each column of the coordinate block by itself, so entry
  (p, q) of what the body stores is output feature p of the network on column q of the block. At the last grid
  point the block's buffer holds contents nothing names on the columns past the array's end; the result's columns
  inside the array do not depend on them, and only those columns are written back.
-/
import proofs.«413920_j11433202942399_3_alg».proof.Proof.Local
import proofs.«413920_j11433202942399_3_alg».proof.Proof.HostSide

set_option maxRecDepth 16384

noncomputable section

namespace Cert.KernelIdeal.Exact

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The written-back columns at a grid point -/

/-- At a grid point, over the blocks the region finds: the part of the result's buffer that is written back is the
    same whatever lay past the array's end in the coordinate block's buffer. -/
theorem cut_outOf (c : Dev nD) (t : Fin cfg0.N) (d : S3x32768.Idx → Elt Ideal .f32) :
    win0_13.cut (grid0.coords t) (outOf (xfill m c t d) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
      = win0_13.cut (grid0.coords t) (outOf (xfill m c t zfill) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) :=
  cut_outOf_of (grid0.coords t) (moved_sizes t).1 (moved_sizes t).2 (iblk m c 0 t) d zfill (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-! ## The body obligation, every buffer named -/

/-- The library's body obligation at every point: the thirteen inputs' buffers arrive at their blocks (the coordinate
    block filled out by `d` past the array's end) and leave as they came; the result's arrives at anything and leaves
    holding, on the columns that are written back, the body's result on the block. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12, before_13 m c t d13]
  iapply (sound_kernel (F := Ideal) c Set.univ (grid0.coords t) _ _ _ _ _ _ _ _ _ _ _ _ _ _ _ _ _ _ _ _ _ _ _ _ _ _ _ _ (xfill m c t d0) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists d13; iexact H13
  iintro ⟨H0, H1, H2, H3, H4, H5, H6, H7, H8, H9, H10, H11, H12, H13⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [after_0, show win0_0.cut (grid0.coords t) (xfill m c t zfill) = iblk m c 0 t from win0_0.cut_fill _ _ _]
    exact .rfl
  isplitl [H1]; · rw [after_1]; try iexact H1
  isplitl [H2]; · rw [after_2]; try iexact H2
  isplitl [H3]; · rw [after_3]; try iexact H3
  isplitl [H4]; · rw [after_4]; try iexact H4
  isplitl [H5]; · rw [after_5]; try iexact H5
  isplitl [H6]; · rw [after_6]; try iexact H6
  isplitl [H7]; · rw [after_7]; try iexact H7
  isplitl [H8]; · rw [after_8]; try iexact H8
  isplitl [H9]; · rw [after_9]; try iexact H9
  isplitl [H10]; · rw [after_10]; try iexact H10
  isplitl [H11]; · rw [after_11]; try iexact H11
  isplitl [H12]; · rw [after_12]; try iexact H12
  iexists outOf (xfill m c t d0) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  change _ ⊢ owns (c : Thread nD τ) (stage0_13 (cfg0.slots t 13)) fullShare
    (win0_13.fill (grid0.coords t) (outOf (xfill m c t d0) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
      (win0_13.cut (grid0.coords t) ((dats m 0 c).after 13 t)))
  rw [after_13, win0_13.fill_congr_cut _ (cut_outOf m c t d0)]
  try iexact H13

/-! ## The run -/

set_option backward.isDefEq.respectTransparency.types false in
/-- At the compiled mesh, for any extended-real values, from any memory with zero counters: every weakly fair
    execution of @main terminates, every array of the pipeline ends at what the proof data compute — the result's at
    its entry contents overwritten, block by block, by what each point wrote back — and every other unscoped buffer
    at what the host line after the region leaves. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The blocks the region finds, entry by entry -/

/-- An entry of what the body stores, once every buffer's entries are known: the network with those weights and
    biases on that column. -/
theorem outOf_entry (x0 : Vec Ideal S3x32768 .f32) (x1 : Vec Ideal S16x3 .bf16) (x2 : Vec Ideal S16x1 .f32) (x3 : Vec Ideal S32x16 .bf16) (x4 : Vec Ideal S32x1 .f32) (x5 : Vec Ideal S64x32 .bf16) (x6 : Vec Ideal S64x1 .f32) (x7 : Vec Ideal S32x64 .bf16) (x8 : Vec Ideal S32x1 .f32) (x9 : Vec Ideal S16x32 .bf16) (x10 : Vec Ideal S16x1 .f32) (x11 : Vec Ideal S3x16 .bf16) (x12 : Vec Ideal S3x1 .f32) (p : Fin 3) (q : Fin 32768)
    (xc : Fin 3 → EReal) (W1 : Fin 3 → Fin 16 → EReal) (b1 : Fin 16 → EReal) (W2 : Fin 16 → Fin 32 → EReal) (b2 : Fin 32 → EReal) (W3 : Fin 32 → Fin 64 → EReal) (b3 : Fin 64 → EReal) (W4 : Fin 64 → Fin 32 → EReal) (b4 : Fin 32 → EReal) (W5 : Fin 32 → Fin 16 → EReal) (b5 : Fin 16 → EReal) (Wl : Fin 16 → Fin 3 → EReal) (bl : Fin 3 → EReal)
    (hx : ∀ k, x0 (ix2 k q) = xc k) (h1 : ∀ o k, x1 (ix2 o k) = W1 k o) (h2 : ∀ o, x2 (ix2 o 0) = b1 o) (h3 : ∀ o k, x3 (ix2 o k) = W2 k o) (h4 : ∀ o, x4 (ix2 o 0) = b2 o) (h5 : ∀ o k, x5 (ix2 o k) = W3 k o) (h6 : ∀ o, x6 (ix2 o 0) = b3 o) (h7 : ∀ o k, x7 (ix2 o k) = W4 k o) (h8 : ∀ o, x8 (ix2 o 0) = b4 o) (h9 : ∀ o k, x9 (ix2 o k) = W5 k o) (h10 : ∀ o, x10 (ix2 o 0) = b5 o) (h11 : ∀ o k, x11 (ix2 o k) = Wl k o) (h12 : ∀ o, x12 (ix2 o 0) = bl o) :
    outOf (F := Ideal) x0 x1 x2 x3 x4 x5 x6 x7 x8 x9 x10 x11 x12 (ix2 p q) = Cert.Mlp.net W1 b1 W2 b2 W3 b3 W4 b4 W5 b5 Wl bl xc p := by
  rw [outOf_apply, show (fun k => x0 (ix2 k q)) = xc from funext hx,
    show (fun k o => x1 (ix2 o k)) = W1 from funext fun k => funext fun o => h1 o k,
    show (fun o => x2 (ix2 o 0)) = b1 from funext fun o => h2 o,
    show (fun k o => x3 (ix2 o k)) = W2 from funext fun k => funext fun o => h3 o k,
    show (fun o => x4 (ix2 o 0)) = b2 from funext fun o => h4 o,
    show (fun k o => x5 (ix2 o k)) = W3 from funext fun k => funext fun o => h5 o k,
    show (fun o => x6 (ix2 o 0)) = b3 from funext fun o => h6 o,
    show (fun k o => x7 (ix2 o k)) = W4 from funext fun k => funext fun o => h7 o k,
    show (fun o => x8 (ix2 o 0)) = b4 from funext fun o => h8 o,
    show (fun k o => x9 (ix2 o k)) = W5 from funext fun k => funext fun o => h9 o k,
    show (fun o => x10 (ix2 o 0)) = b5 from funext fun o => h10 o,
    show (fun k o => x11 (ix2 o k)) = Wl from funext fun k => funext fun o => h11 o k,
    show (fun o => x12 (ix2 o 0)) = bl from funext fun o => h12 o]

/-- A weight's window is its whole transposed array at every point: entry (o, k) is entry (k, o) of the argument. -/
theorem blk_w1 (c : Dev nD) (t : Fin cfg0.N) (o : Fin 16) (k : Fin 3) :
    iblk m c 1 t (ix2 o k) = Cert.Mlp.mat (m ((c : Thread nD τ).loc main_arg2) : S3x16.Idx → EReal) k o := by
  have hidx : ∀ t : Fin cfg0.N, win0_1.index t 0 = 0 ∧ win0_1.index t 1 = 0 :=
    (by decide +kernel : ∀ t : Fin grid0.N, win0_1.index t 0 = 0 ∧ win0_1.index t 1 = 0)
  refine Eq.trans ?_ (HostSide.V_w1 m c o k)
  show V m c main_v2 (((cfg0.win 1).blk t).view.emb (ix2 o k)) = V m c main_v2 (ix2 o k)
  refine congrArg _ (funext fun a => Fin.ext ?_)
  match a with
  | ⟨0, _⟩ => show win0_1.index t 0 * 16 + 1 * o.val = o.val; rw [(hidx t).1]; omega
  | ⟨1, _⟩ => show win0_1.index t 1 * 3 + 1 * k.val = k.val; rw [(hidx t).2]; omega
theorem blk_w2 (c : Dev nD) (t : Fin cfg0.N) (o : Fin 32) (k : Fin 16) :
    iblk m c 3 t (ix2 o k) = Cert.Mlp.mat (m ((c : Thread nD τ).loc main_arg4) : S16x32.Idx → EReal) k o := by
  have hidx : ∀ t : Fin cfg0.N, win0_3.index t 0 = 0 ∧ win0_3.index t 1 = 0 :=
    (by decide +kernel : ∀ t : Fin grid0.N, win0_3.index t 0 = 0 ∧ win0_3.index t 1 = 0)
  refine Eq.trans ?_ (HostSide.V_w2 m c o k)
  show V m c main_v4 (((cfg0.win 3).blk t).view.emb (ix2 o k)) = V m c main_v4 (ix2 o k)
  refine congrArg _ (funext fun a => Fin.ext ?_)
  match a with
  | ⟨0, _⟩ => show win0_3.index t 0 * 32 + 1 * o.val = o.val; rw [(hidx t).1]; omega
  | ⟨1, _⟩ => show win0_3.index t 1 * 16 + 1 * k.val = k.val; rw [(hidx t).2]; omega
theorem blk_w3 (c : Dev nD) (t : Fin cfg0.N) (o : Fin 64) (k : Fin 32) :
    iblk m c 5 t (ix2 o k) = Cert.Mlp.mat (m ((c : Thread nD τ).loc main_arg6) : S32x64.Idx → EReal) k o := by
  have hidx : ∀ t : Fin cfg0.N, win0_5.index t 0 = 0 ∧ win0_5.index t 1 = 0 :=
    (by decide +kernel : ∀ t : Fin grid0.N, win0_5.index t 0 = 0 ∧ win0_5.index t 1 = 0)
  refine Eq.trans ?_ (HostSide.V_w3 m c o k)
  show V m c main_v6 (((cfg0.win 5).blk t).view.emb (ix2 o k)) = V m c main_v6 (ix2 o k)
  refine congrArg _ (funext fun a => Fin.ext ?_)
  match a with
  | ⟨0, _⟩ => show win0_5.index t 0 * 64 + 1 * o.val = o.val; rw [(hidx t).1]; omega
  | ⟨1, _⟩ => show win0_5.index t 1 * 32 + 1 * k.val = k.val; rw [(hidx t).2]; omega
theorem blk_w4 (c : Dev nD) (t : Fin cfg0.N) (o : Fin 32) (k : Fin 64) :
    iblk m c 7 t (ix2 o k) = Cert.Mlp.mat (m ((c : Thread nD τ).loc main_arg8) : S64x32.Idx → EReal) k o := by
  have hidx : ∀ t : Fin cfg0.N, win0_7.index t 0 = 0 ∧ win0_7.index t 1 = 0 :=
    (by decide +kernel : ∀ t : Fin grid0.N, win0_7.index t 0 = 0 ∧ win0_7.index t 1 = 0)
  refine Eq.trans ?_ (HostSide.V_w4 m c o k)
  show V m c main_v8 (((cfg0.win 7).blk t).view.emb (ix2 o k)) = V m c main_v8 (ix2 o k)
  refine congrArg _ (funext fun a => Fin.ext ?_)
  match a with
  | ⟨0, _⟩ => show win0_7.index t 0 * 32 + 1 * o.val = o.val; rw [(hidx t).1]; omega
  | ⟨1, _⟩ => show win0_7.index t 1 * 64 + 1 * k.val = k.val; rw [(hidx t).2]; omega
theorem blk_w5 (c : Dev nD) (t : Fin cfg0.N) (o : Fin 16) (k : Fin 32) :
    iblk m c 9 t (ix2 o k) = Cert.Mlp.mat (m ((c : Thread nD τ).loc main_arg10) : S32x16.Idx → EReal) k o := by
  have hidx : ∀ t : Fin cfg0.N, win0_9.index t 0 = 0 ∧ win0_9.index t 1 = 0 :=
    (by decide +kernel : ∀ t : Fin grid0.N, win0_9.index t 0 = 0 ∧ win0_9.index t 1 = 0)
  refine Eq.trans ?_ (HostSide.V_w5 m c o k)
  show V m c main_v10 (((cfg0.win 9).blk t).view.emb (ix2 o k)) = V m c main_v10 (ix2 o k)
  refine congrArg _ (funext fun a => Fin.ext ?_)
  match a with
  | ⟨0, _⟩ => show win0_9.index t 0 * 16 + 1 * o.val = o.val; rw [(hidx t).1]; omega
  | ⟨1, _⟩ => show win0_9.index t 1 * 32 + 1 * k.val = k.val; rw [(hidx t).2]; omega
theorem blk_wl (c : Dev nD) (t : Fin cfg0.N) (o : Fin 3) (k : Fin 16) :
    iblk m c 11 t (ix2 o k) = Cert.Mlp.mat (m ((c : Thread nD τ).loc main_arg12) : S16x3.Idx → EReal) k o := by
  have hidx : ∀ t : Fin cfg0.N, win0_11.index t 0 = 0 ∧ win0_11.index t 1 = 0 :=
    (by decide +kernel : ∀ t : Fin grid0.N, win0_11.index t 0 = 0 ∧ win0_11.index t 1 = 0)
  refine Eq.trans ?_ (HostSide.V_wl m c o k)
  show V m c main_v12 (((cfg0.win 11).blk t).view.emb (ix2 o k)) = V m c main_v12 (ix2 o k)
  refine congrArg _ (funext fun a => Fin.ext ?_)
  match a with
  | ⟨0, _⟩ => show win0_11.index t 0 * 3 + 1 * o.val = o.val; rw [(hidx t).1]; omega
  | ⟨1, _⟩ => show win0_11.index t 1 * 16 + 1 * k.val = k.val; rw [(hidx t).2]; omega
/-- A bias's window is its whole one-column array at every point: entry (o, 0) is entry o of the argument. -/
theorem blk_b1 (c : Dev nD) (t : Fin cfg0.N) (o : Fin 16) :
    iblk m c 2 t (ix2 o 0) = Cert.Mlp.vec (m ((c : Thread nD τ).loc main_arg3) : S16.Idx → EReal) o := by
  have hidx : ∀ t : Fin cfg0.N, win0_2.index t 0 = 0 ∧ win0_2.index t 1 = 0 :=
    (by decide +kernel : ∀ t : Fin grid0.N, win0_2.index t 0 = 0 ∧ win0_2.index t 1 = 0)
  refine Eq.trans ?_ (HostSide.V_b1 m c o)
  show V m c main_v13 (((cfg0.win 2).blk t).view.emb (ix2 o 0)) = V m c main_v13 (ix2 o 0)
  refine congrArg _ (funext fun a => Fin.ext ?_)
  match a with
  | ⟨0, _⟩ => show win0_2.index t 0 * 16 + 1 * o.val = o.val; rw [(hidx t).1]; omega
  | ⟨1, _⟩ => show win0_2.index t 1 * 1 + 1 * 0 = 0; rw [(hidx t).2]
theorem blk_b2 (c : Dev nD) (t : Fin cfg0.N) (o : Fin 32) :
    iblk m c 4 t (ix2 o 0) = Cert.Mlp.vec (m ((c : Thread nD τ).loc main_arg5) : S32.Idx → EReal) o := by
  have hidx : ∀ t : Fin cfg0.N, win0_4.index t 0 = 0 ∧ win0_4.index t 1 = 0 :=
    (by decide +kernel : ∀ t : Fin grid0.N, win0_4.index t 0 = 0 ∧ win0_4.index t 1 = 0)
  refine Eq.trans ?_ (HostSide.V_b2 m c o)
  show V m c main_v14 (((cfg0.win 4).blk t).view.emb (ix2 o 0)) = V m c main_v14 (ix2 o 0)
  refine congrArg _ (funext fun a => Fin.ext ?_)
  match a with
  | ⟨0, _⟩ => show win0_4.index t 0 * 32 + 1 * o.val = o.val; rw [(hidx t).1]; omega
  | ⟨1, _⟩ => show win0_4.index t 1 * 1 + 1 * 0 = 0; rw [(hidx t).2]
theorem blk_b3 (c : Dev nD) (t : Fin cfg0.N) (o : Fin 64) :
    iblk m c 6 t (ix2 o 0) = Cert.Mlp.vec (m ((c : Thread nD τ).loc main_arg7) : S64.Idx → EReal) o := by
  have hidx : ∀ t : Fin cfg0.N, win0_6.index t 0 = 0 ∧ win0_6.index t 1 = 0 :=
    (by decide +kernel : ∀ t : Fin grid0.N, win0_6.index t 0 = 0 ∧ win0_6.index t 1 = 0)
  refine Eq.trans ?_ (HostSide.V_b3 m c o)
  show V m c main_v15 (((cfg0.win 6).blk t).view.emb (ix2 o 0)) = V m c main_v15 (ix2 o 0)
  refine congrArg _ (funext fun a => Fin.ext ?_)
  match a with
  | ⟨0, _⟩ => show win0_6.index t 0 * 64 + 1 * o.val = o.val; rw [(hidx t).1]; omega
  | ⟨1, _⟩ => show win0_6.index t 1 * 1 + 1 * 0 = 0; rw [(hidx t).2]
theorem blk_b4 (c : Dev nD) (t : Fin cfg0.N) (o : Fin 32) :
    iblk m c 8 t (ix2 o 0) = Cert.Mlp.vec (m ((c : Thread nD τ).loc main_arg9) : S32.Idx → EReal) o := by
  have hidx : ∀ t : Fin cfg0.N, win0_8.index t 0 = 0 ∧ win0_8.index t 1 = 0 :=
    (by decide +kernel : ∀ t : Fin grid0.N, win0_8.index t 0 = 0 ∧ win0_8.index t 1 = 0)
  refine Eq.trans ?_ (HostSide.V_b4 m c o)
  show V m c main_v16 (((cfg0.win 8).blk t).view.emb (ix2 o 0)) = V m c main_v16 (ix2 o 0)
  refine congrArg _ (funext fun a => Fin.ext ?_)
  match a with
  | ⟨0, _⟩ => show win0_8.index t 0 * 32 + 1 * o.val = o.val; rw [(hidx t).1]; omega
  | ⟨1, _⟩ => show win0_8.index t 1 * 1 + 1 * 0 = 0; rw [(hidx t).2]
theorem blk_b5 (c : Dev nD) (t : Fin cfg0.N) (o : Fin 16) :
    iblk m c 10 t (ix2 o 0) = Cert.Mlp.vec (m ((c : Thread nD τ).loc main_arg11) : S16.Idx → EReal) o := by
  have hidx : ∀ t : Fin cfg0.N, win0_10.index t 0 = 0 ∧ win0_10.index t 1 = 0 :=
    (by decide +kernel : ∀ t : Fin grid0.N, win0_10.index t 0 = 0 ∧ win0_10.index t 1 = 0)
  refine Eq.trans ?_ (HostSide.V_b5 m c o)
  show V m c main_v17 (((cfg0.win 10).blk t).view.emb (ix2 o 0)) = V m c main_v17 (ix2 o 0)
  refine congrArg _ (funext fun a => Fin.ext ?_)
  match a with
  | ⟨0, _⟩ => show win0_10.index t 0 * 16 + 1 * o.val = o.val; rw [(hidx t).1]; omega
  | ⟨1, _⟩ => show win0_10.index t 1 * 1 + 1 * 0 = 0; rw [(hidx t).2]
theorem blk_bl (c : Dev nD) (t : Fin cfg0.N) (o : Fin 3) :
    iblk m c 12 t (ix2 o 0) = Cert.Mlp.vec (m ((c : Thread nD τ).loc main_arg13) : S3.Idx → EReal) o := by
  have hidx : ∀ t : Fin cfg0.N, win0_12.index t 0 = 0 ∧ win0_12.index t 1 = 0 :=
    (by decide +kernel : ∀ t : Fin grid0.N, win0_12.index t 0 = 0 ∧ win0_12.index t 1 = 0)
  refine Eq.trans ?_ (HostSide.V_bl m c o)
  show V m c main_v18 (((cfg0.win 12).blk t).view.emb (ix2 o 0)) = V m c main_v18 (ix2 o 0)
  refine congrArg _ (funext fun a => Fin.ext ?_)
  match a with
  | ⟨0, _⟩ => show win0_12.index t 0 * 3 + 1 * o.val = o.val; rw [(hidx t).1]; omega
  | ⟨1, _⟩ => show win0_12.index t 1 * 1 + 1 * 0 = 0; rw [(hidx t).2]

/-- A column of the coordinate block that the fetch fills holds a node's coordinates: column `q` of block `t` is
    node `t * 32768 + q`. -/
theorem blk_x (c : Dev nD) (t : Fin cfg0.N) (k : Fin 3) (q : Fin 32768) (hq : q.val < win0_13.xsize (grid0.coords t) 1)
    (n : Fin 1000000) (hn : n.val = t.val * 32768 + q.val) :
    xfill m c t zfill (ix2 k q) = (m ((c : Thread nD τ).loc main_arg0) : S1000000x3.Idx → EReal) (ix2 n k) := by
  have hidx : ∀ t : Fin cfg0.N, win0_0.index t 0 = 0 ∧ win0_0.index t 1 = t.val :=
    (by decide +kernel : ∀ t : Fin grid0.N, win0_0.index t 0 = 0 ∧ win0_0.index t 1 = t.val)
  have hmv : win0_0.moved (grid0.coords t) (ix2 k q) = true := (win0_0.moved_iff _ _).mpr fun a => by
    match a with
    | ⟨0, _⟩ => show k.val < win0_0.xsize (grid0.coords t) 0; rw [(moved_sizes t).1]; exact k.isLt
    | ⟨1, _⟩ => show q.val < win0_0.xsize (grid0.coords t) 1; rw [(moved_sizes t).2]; exact hq
  refine Eq.trans ?_ (HostSide.V_x m c k n)
  show win0_0.fill (grid0.coords t) zfill (iblk m c 0 t) (ix2 k q) = _
  unfold Window.fill
  rw [dif_pos hmv]
  show V m c main_v0 (((cfg0.win 0).blk t).view.emb _) = V m c main_v0 (ix2 k n)
  refine congrArg _ (funext fun a => Fin.ext ?_)
  match a with
  | ⟨0, _⟩ => show win0_0.index t 0 * 3 + 1 * k.val = k.val; rw [(hidx t).1]; omega
  | ⟨1, _⟩ => show win0_0.index t 1 * 32768 + 1 * q.val = n.val; rw [(hidx t).2, hn]; omega

/-! ## The result array after the region -/

/-- The result array before the host transpose: entry (o, n) is output feature o of the network on node n. -/
def GT (c : Dev nD) : S3x1000000.Idx → Elt Ideal .f32 := fun i =>
  Cert.Mlp.G (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 (i 1 : Fin 1000000) (i 0 : Fin 3))

/-- What point `t` writes back is its block of that array. -/
theorem flushed_eq (c : Dev nD) (t : Fin cfg0.N) :
    (dats m 0 c).flushed 13 t = ((cfg0.win 13).blk t).view.read (Elt Ideal) (GT m c) := by
  have hidx : ∀ t : Fin cfg0.N, win0_13.index t 0 = 0 ∧ win0_13.index t 1 = t.val :=
    (by decide +kernel : ∀ t : Fin grid0.N, win0_13.index t 0 = 0 ∧ win0_13.index t 1 = t.val)
  funext j
  have hj1 : (j 1).val < 32768 := (win0_13.xinj (grid0.coords t) j 1).isLt
  have ei0 : ((((cfg0.win 13).blk t).view.emb j : S3x1000000.Idx) 0).val = (j 0).val := by
    show win0_13.index t 0 * 3 + 1 * (j 0).val = (j 0).val; rw [(hidx t).1]; omega
  have ei1 : ((((cfg0.win 13).blk t).view.emb j : S3x1000000.Idx) 1).val = t.val * 32768 + (j 1).val := by
    show win0_13.index t 1 * 32768 + 1 * (j 1).val = _; rw [(hidx t).2]; omega
  have hL : (dats m 0 c).flushed 13 t j = outOf (xfill m c t zfill) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (win0_13.xinj (grid0.coords t) j) := by
    show win0_13.cut (grid0.coords t) ((dats m 0 c).after 13 t) j = _
    rw [after_13]
  rw [hL, View.read_apply]
  generalize (((cfg0.win 13).blk t).view.emb j : S3x1000000.Idx) = i at ei0 ei1 ⊢
  have hy : (win0_13.xinj (grid0.coords t) j : S3x32768.Idx) = ix2 (i 0 : Fin 3) (⟨(j 1).val, hj1⟩ : Fin 32768) :=
    funext fun a => Fin.ext (by match a with | ⟨0, _⟩ => exact ei0.symm | ⟨1, _⟩ => rfl)
  rw [hy]
  exact outOf_entry (xfill m c t zfill) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (i 0) ⟨(j 1).val, hj1⟩
    (fun k => (m ((c : Thread nD τ).loc main_arg0) : S1000000x3.Idx → EReal) (ix2 (i 1 : Fin 1000000) k))
    _ _ _ _ _ _ _ _ _ _ _ _
    (fun k => blk_x m c t k _ (j 1).isLt (i 1) ei1)
    (blk_w1 m c t) (blk_b1 m c t) (blk_w2 m c t) (blk_b2 m c t) (blk_w3 m c t) (blk_b3 m c t)
    (blk_w4 m c t) (blk_b4 m c t) (blk_w5 m c t) (blk_b5 m c t) (blk_wl m c t) (blk_bl m c t)

/-- Every entry of the result array lies in the block some point writes back: node `n` in block `n / 32768`, whose
    last one holds the 16960 columns up to the array's end. -/
theorem cover (i : S3x1000000.Idx) :
    ∃ t : Fin cfg0.N, (cfg0.win 13).flush t = true ∧ i ∈ ((cfg0.win 13).blk t).view.set := by
  have hf : ∀ t : Fin cfg0.N, win0_13.index t 0 = 0 ∧ win0_13.index t 1 = t.val ∧ win0_13.xsize (grid0.coords t) 0 = 3
      ∧ win0_13.xsize (grid0.coords t) 1 = (if t.val = 30 then 16960 else 32768) :=
    (by decide +kernel : ∀ t : Fin grid0.N, win0_13.index t 0 = 0 ∧ win0_13.index t 1 = t.val
      ∧ win0_13.xsize (grid0.coords t) 0 = 3 ∧ win0_13.xsize (grid0.coords t) 1 = (if t.val = 30 then 16960 else 32768))
  have h0 : (i 0).val < 3 := (i 0).isLt
  have h1 : (i 1).val < 1000000 := (i 1).isLt
  have ht : (i 1).val / 32768 < cfg0.N := by show _ < 31; omega
  refine ⟨⟨(i 1).val / 32768, ht⟩, flush0_13 _, ?_⟩
  show i ∈ ((View.whole main_v19).slice (win0_13.rect ⟨(i 1).val / 32768, ht⟩)).set
  rw [View.set_slice_whole, Rect.mem_set_unit]
  intro a
  match a with
  | ⟨0, _⟩ =>
    show win0_13.index ⟨(i 1).val / 32768, ht⟩ 0 * 3 ≤ (i 0).val
      ∧ (i 0).val < win0_13.index ⟨(i 1).val / 32768, ht⟩ 0 * 3 + win0_13.xsize (grid0.coords ⟨(i 1).val / 32768, ht⟩) 0
    rw [(hf _).1, (hf _).2.2.1]; omega
  | ⟨1, _⟩ =>
    show win0_13.index ⟨(i 1).val / 32768, ht⟩ 1 * 32768 ≤ (i 1).val
      ∧ (i 1).val < win0_13.index ⟨(i 1).val / 32768, ht⟩ 1 * 32768 + win0_13.xsize (grid0.coords ⟨(i 1).val / 32768, ht⟩) 1
    rw [(hf _).2.1, (hf _).2.2.2]
    show (i 1).val / 32768 * 32768 ≤ (i 1).val ∧ (i 1).val < (i 1).val / 32768 * 32768 + (if (i 1).val / 32768 = 30 then 16960 else 32768)
    split <;> omega

/-- After the region the result array holds the network's output for every node, features along the rows. -/
theorem finalOut (c : Dev nD) : (dats m 0 c).arrAt 13 cfg0.N = GT m c :=
  (dats m 0 c).arrAt_eq_of_cover 13 (GT m c) (fun t _ => flushed_eq m c t) cover

/-! ## The host transpose after the region, and the run with its result named -/

/-- The network's output for every node, nodes along the rows. -/
def Gm (c : Dev nD) : S1000000x3.Idx → Elt Ideal .f32 := Cert.Mlp.G (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The line after the region transposes the result array: the program's result is the network's output for every
    node, nodes along the rows. -/
theorem tail_v20 (c : Dev nD) :
    Pipeline.afterTail₀ cfgs (dats m) 0 (V0 m) [hostOps1] c main_v20 = Gm m c := by
  unfold Pipeline.afterTail₀
  show StableHlo.after hostOps1 _ (Proc.devRef .tc main_v20) = _
  after_results
  have hA : Pipeline.withArrays (cfgs 0).spec c (V0 m c) (fun w => (dats m 0 c).arrAt w (cfgs 0).N) (Proc.devRef .tc main_v19)
      = GT m c := (Pipeline.withArrays_arr spec0 launch0.win.arr_inj c _ _ 13).trans (finalOut m c)
  rw [hA]
  funext i
  obtain ⟨n, o, rfl⟩ : ∃ (n : Fin 1000000) (o : Fin 3), i = ix2 n o := ⟨i 0, i 1, eq_ix2 i⟩
  exact (HostSide.tail_apply (GT m c) n o).trans rfl

/-- At the compiled mesh, for any extended-real values, from any memory with zero counters: every weakly fair
    execution of the idealized kernel's @main terminates with its result at the network's output for every node and
    its fourteen argument arrays unchanged. -/
theorem kernel_run : θ_run defs (onTc (τ := τ) (main (F := Ideal))) ⟨m, fun _ => 0, ρ⟩ (fun r => ∀ c : Dev nD,
      r.2.mem ((c.tc : Thread nD τ).loc main_v20) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v20 (Pipeline.mem_restRefs_of main_v20 (by decide) (by decide))).trans (tail_v20 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩) (run_main m ρ)

end Cert.KernelIdeal.Exact

end
-- ==== Proof.RefImports.lean ====
/- The reference's run and its stages read at an index, brought into scope for the modules that compare the two programs. -/
import proofs.«413920_j11433202942399_3_alg».proof.Proof.Gen.ReferenceIdeal.Run
import proofs.«413920_j11433202942399_3_alg».proof.Proof.Gen.ReferenceIdeal.Read
-- ==== Proof.RefValue.lean ====
/-
  The reference program, read entry by entry, is the network of the specification.

  The program is six dense layers. Each is a matrix product (a sum over the previous layer's features), a bias vector
  broadcast along the nodes, their sum and, except after the last, the hyperbolic tangent of every entry. Entry
  `(n, o)` of a layer therefore depends on row `n` of the layer before it only: it is `affine W b` of that row at
  feature `o`, under `act` where the tangent follows. Chaining the six layers along one node's row gives `net` on the
  node's coordinates, which is what `G` states for every entry.
-/
import proofs.«413920_j11433202942399_3_alg».proof.Proof.RefImports
import proofs.«413920_j11433202942399_3_alg».proof.Proof.Spec

noncomputable section

open scoped BigOperators

namespace Cert.ReferenceIdeal.RefValue

open Cert.ReferenceIdeal Cert.ReferenceIdeal.Read Idealize.ShloMosaic Idealize.ShloMosaic.ValueIdx Cert.Mlp

section Layers

variable (x0 : (⟨S1000000x3, .f32⟩ : BufTy).Contents (Elt Ideal))
  (x2 : (⟨S3x16, .f32⟩ : BufTy).Contents (Elt Ideal))
  (x3 : (⟨S16, .f32⟩ : BufTy).Contents (Elt Ideal))
  (x4 : (⟨S16x32, .f32⟩ : BufTy).Contents (Elt Ideal))
  (x5 : (⟨S32, .f32⟩ : BufTy).Contents (Elt Ideal))
  (x6 : (⟨S32x64, .f32⟩ : BufTy).Contents (Elt Ideal))
  (x7 : (⟨S64, .f32⟩ : BufTy).Contents (Elt Ideal))
  (x8 : (⟨S64x32, .f32⟩ : BufTy).Contents (Elt Ideal))
  (x9 : (⟨S32, .f32⟩ : BufTy).Contents (Elt Ideal))
  (x10 : (⟨S32x16, .f32⟩ : BufTy).Contents (Elt Ideal))
  (x11 : (⟨S16, .f32⟩ : BufTy).Contents (Elt Ideal))
  (x12 : (⟨S16x3, .f32⟩ : BufTy).Contents (Elt Ideal))
  (x13 : (⟨S3, .f32⟩ : BufTy).Contents (Elt Ideal))

/-! ## One layer at an entry

  In each lemma the three index equations say where the entry `(n, o)` reads its operands: the left factor of the
  product at `(n, k)`, the right factor at `(k, o)`, and the twice-broadcast bias at `o`. -/

/-- The first layer at node `n`, feature `o`: the product with the weight matrix is the sum over the three coordinates
    of the node, the broadcast bias contributes its entry `o`, and the hyperbolic tangent is applied to the sum. -/
theorem layer1_at (n : Fin 1000000) (o : Fin 16) :
    val_main_v4 (F := Ideal) x0 x2 x3 (ix2 n o)
      = act (affine (mat x2) (vec x3) (fun k => x0 (ix2 n k))) o := by
  have el : ∀ k : Fin 3, lidx_main_v0 (ix2 n o) k = ix2 n k := fun k =>
    funext fun a => Fin.ext (by match a with | ⟨0, _⟩ => rfl | ⟨1, _⟩ => rfl)
  have er : ∀ k : Fin 3, ridx_main_v0 (ix2 n o) k = ix2 k o := fun k =>
    funext fun a => Fin.ext (by match a with | ⟨0, _⟩ => rfl | ⟨1, _⟩ => rfl)
  have eb : idx_main_v1 (idx_main_v2 (ix2 n o)) = ix1 o :=
    funext fun a => Fin.ext (by match a with | ⟨0, _⟩ => rfl)
  rw [val_main_v4_apply, val_main_v3_apply, val_main_v0_apply, val_main_v2_apply, val_main_v1_apply]
  simp only [el, er, eb, Ideal.hostUnary_tanh_def, Ideal.addf_def]
  rfl

/-- The second layer at node `n`, feature `o`, from the previous layer's activations of the same node: the sum over its
    16 features against column `o` of the weights, plus entry `o` of the bias, under the hyperbolic tangent. -/
theorem layer2_at (n : Fin 1000000) (o : Fin 32) :
    val_main_v9 (F := Ideal) x0 x2 x3 x4 x5 (ix2 n o)
      = act (affine (mat x4) (vec x5) (fun k => val_main_v4 (F := Ideal) x0 x2 x3 (ix2 n k))) o := by
  have el : ∀ k : Fin 16, lidx_main_v5 (ix2 n o) k = ix2 n k := fun k =>
    funext fun a => Fin.ext (by match a with | ⟨0, _⟩ => rfl | ⟨1, _⟩ => rfl)
  have er : ∀ k : Fin 16, ridx_main_v5 (ix2 n o) k = ix2 k o := fun k =>
    funext fun a => Fin.ext (by match a with | ⟨0, _⟩ => rfl | ⟨1, _⟩ => rfl)
  have eb : idx_main_v6 (idx_main_v7 (ix2 n o)) = ix1 o :=
    funext fun a => Fin.ext (by match a with | ⟨0, _⟩ => rfl)
  rw [val_main_v9_apply, val_main_v8_apply, val_main_v5_apply, val_main_v7_apply, val_main_v6_apply]
  simp only [el, er, eb, Ideal.hostUnary_tanh_def, Ideal.addf_def]
  rfl

/-- The third layer at node `n`, feature `o`, from the previous layer's activations of the same node: the sum over its
    32 features against column `o` of the weights, plus entry `o` of the bias, under the hyperbolic tangent. -/
theorem layer3_at (n : Fin 1000000) (o : Fin 64) :
    val_main_v14 (F := Ideal) x0 x2 x3 x4 x5 x6 x7 (ix2 n o)
      = act (affine (mat x6) (vec x7) (fun k => val_main_v9 (F := Ideal) x0 x2 x3 x4 x5 (ix2 n k))) o := by
  have el : ∀ k : Fin 32, lidx_main_v10 (ix2 n o) k = ix2 n k := fun k =>
    funext fun a => Fin.ext (by match a with | ⟨0, _⟩ => rfl | ⟨1, _⟩ => rfl)
  have er : ∀ k : Fin 32, ridx_main_v10 (ix2 n o) k = ix2 k o := fun k =>
    funext fun a => Fin.ext (by match a with | ⟨0, _⟩ => rfl | ⟨1, _⟩ => rfl)
  have eb : idx_main_v11 (idx_main_v12 (ix2 n o)) = ix1 o :=
    funext fun a => Fin.ext (by match a with | ⟨0, _⟩ => rfl)
  rw [val_main_v14_apply, val_main_v13_apply, val_main_v10_apply, val_main_v12_apply, val_main_v11_apply]
  simp only [el, er, eb, Ideal.hostUnary_tanh_def, Ideal.addf_def]
  rfl

/-- The fourth layer at node `n`, feature `o`, from the previous layer's activations of the same node: the sum over its
    64 features against column `o` of the weights, plus entry `o` of the bias, under the hyperbolic tangent. -/
theorem layer4_at (n : Fin 1000000) (o : Fin 32) :
    val_main_v19 (F := Ideal) x0 x2 x3 x4 x5 x6 x7 x8 x9 (ix2 n o)
      = act (affine (mat x8) (vec x9) (fun k => val_main_v14 (F := Ideal) x0 x2 x3 x4 x5 x6 x7 (ix2 n k))) o := by
  have el : ∀ k : Fin 64, lidx_main_v15 (ix2 n o) k = ix2 n k := fun k =>
    funext fun a => Fin.ext (by match a with | ⟨0, _⟩ => rfl | ⟨1, _⟩ => rfl)
  have er : ∀ k : Fin 64, ridx_main_v15 (ix2 n o) k = ix2 k o := fun k =>
    funext fun a => Fin.ext (by match a with | ⟨0, _⟩ => rfl | ⟨1, _⟩ => rfl)
  have eb : idx_main_v16 (idx_main_v17 (ix2 n o)) = ix1 o :=
    funext fun a => Fin.ext (by match a with | ⟨0, _⟩ => rfl)
  rw [val_main_v19_apply, val_main_v18_apply, val_main_v15_apply, val_main_v17_apply, val_main_v16_apply]
  simp only [el, er, eb, Ideal.hostUnary_tanh_def, Ideal.addf_def]
  rfl

/-- The fifth layer at node `n`, feature `o`, from the previous layer's activations of the same node: the sum over its
    32 features against column `o` of the weights, plus entry `o` of the bias, under the hyperbolic tangent. -/
theorem layer5_at (n : Fin 1000000) (o : Fin 16) :
    val_main_v24 (F := Ideal) x0 x2 x3 x4 x5 x6 x7 x8 x9 x10 x11 (ix2 n o)
      = act (affine (mat x10) (vec x11) (fun k => val_main_v19 (F := Ideal) x0 x2 x3 x4 x5 x6 x7 x8 x9 (ix2 n k))) o := by
  have el : ∀ k : Fin 32, lidx_main_v20 (ix2 n o) k = ix2 n k := fun k =>
    funext fun a => Fin.ext (by match a with | ⟨0, _⟩ => rfl | ⟨1, _⟩ => rfl)
  have er : ∀ k : Fin 32, ridx_main_v20 (ix2 n o) k = ix2 k o := fun k =>
    funext fun a => Fin.ext (by match a with | ⟨0, _⟩ => rfl | ⟨1, _⟩ => rfl)
  have eb : idx_main_v21 (idx_main_v22 (ix2 n o)) = ix1 o :=
    funext fun a => Fin.ext (by match a with | ⟨0, _⟩ => rfl)
  rw [val_main_v24_apply, val_main_v23_apply, val_main_v20_apply, val_main_v22_apply, val_main_v21_apply]
  simp only [el, er, eb, Ideal.hostUnary_tanh_def, Ideal.addf_def]
  rfl

/-- The last layer at node `n`, feature `o`, from the fifth layer's activations of the same node: the sum over its 16
    features against column `o` of the weights, plus entry `o` of the bias; no hyperbolic tangent follows. -/
theorem output_at (n : Fin 1000000) (o : Fin 3) :
    val_main_v28 (F := Ideal) x0 x2 x3 x4 x5 x6 x7 x8 x9 x10 x11 x12 x13 (ix2 n o)
      = affine (mat x12) (vec x13) (fun k => val_main_v24 (F := Ideal) x0 x2 x3 x4 x5 x6 x7 x8 x9 x10 x11 (ix2 n k)) o := by
  have el : ∀ k : Fin 16, lidx_main_v25 (ix2 n o) k = ix2 n k := fun k =>
    funext fun a => Fin.ext (by match a with | ⟨0, _⟩ => rfl | ⟨1, _⟩ => rfl)
  have er : ∀ k : Fin 16, ridx_main_v25 (ix2 n o) k = ix2 k o := fun k =>
    funext fun a => Fin.ext (by match a with | ⟨0, _⟩ => rfl | ⟨1, _⟩ => rfl)
  have eb : idx_main_v26 (idx_main_v27 (ix2 n o)) = ix1 o :=
    funext fun a => Fin.ext (by match a with | ⟨0, _⟩ => rfl)
  rw [val_main_v28_apply, val_main_v25_apply, val_main_v27_apply, val_main_v26_apply]
  simp only [el, er, eb, Ideal.addf_def]
  rfl

/-! ## The layers chained along a node's row -/

/-- Node `n`'s activations after the first layer, as a vector of 16 features, are the first layer applied to its coordinates. -/
theorem row1 (n : Fin 1000000) :
    (fun o => val_main_v4 (F := Ideal) x0 x2 x3 (ix2 n o))
      = act (affine (mat x2) (vec x3) (fun k => x0 (ix2 n k))) := by
  funext o
  rw [layer1_at]

/-- Node `n`'s activations after the second layer, as a vector of 32 features, are the first two layers applied to its coordinates. -/
theorem row2 (n : Fin 1000000) :
    (fun o => val_main_v9 (F := Ideal) x0 x2 x3 x4 x5 (ix2 n o))
      = act (affine (mat x4) (vec x5) (act (affine (mat x2) (vec x3) (fun k => x0 (ix2 n k))))) := by
  funext o
  rw [layer2_at, row1]

/-- Node `n`'s activations after the third layer, as a vector of 64 features, are the first three layers applied to its coordinates. -/
theorem row3 (n : Fin 1000000) :
    (fun o => val_main_v14 (F := Ideal) x0 x2 x3 x4 x5 x6 x7 (ix2 n o))
      = act (affine (mat x6) (vec x7) (act (affine (mat x4) (vec x5) (act (affine (mat x2) (vec x3) (fun k => x0 (ix2 n k))))))) := by
  funext o
  rw [layer3_at, row2]

/-- Node `n`'s activations after the fourth layer, as a vector of 32 features, are the first four layers applied to its coordinates. -/
theorem row4 (n : Fin 1000000) :
    (fun o => val_main_v19 (F := Ideal) x0 x2 x3 x4 x5 x6 x7 x8 x9 (ix2 n o))
      = act (affine (mat x8) (vec x9) (act (affine (mat x6) (vec x7) (act (affine (mat x4) (vec x5) (act (affine (mat x2) (vec x3) (fun k => x0 (ix2 n k))))))))) := by
  funext o
  rw [layer4_at, row3]

/-- Node `n`'s activations after the fifth layer, as a vector of 16 features, are the first five layers applied to its coordinates. -/
theorem row5 (n : Fin 1000000) :
    (fun o => val_main_v24 (F := Ideal) x0 x2 x3 x4 x5 x6 x7 x8 x9 x10 x11 (ix2 n o))
      = act (affine (mat x10) (vec x11) (act (affine (mat x8) (vec x9) (act (affine (mat x6) (vec x7) (act (affine (mat x4) (vec x5) (act (affine (mat x2) (vec x3) (fun k => x0 (ix2 n k))))))))))) := by
  funext o
  rw [layer5_at, row4]

end Layers

/-- Every entry of the reference's result is the network applied to its node's coordinates, at the entry's feature. -/
theorem reference_is_G (x0 : (⟨S1000000x3, .f32⟩ : BufTy).Contents (Elt Ideal)) (x2 : (⟨S3x16, .f32⟩ : BufTy).Contents (Elt Ideal)) (x3 : (⟨S16, .f32⟩ : BufTy).Contents (Elt Ideal)) (x4 : (⟨S16x32, .f32⟩ : BufTy).Contents (Elt Ideal)) (x5 : (⟨S32, .f32⟩ : BufTy).Contents (Elt Ideal)) (x6 : (⟨S32x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) (x12 : (⟨S16x3, .f32⟩ : BufTy).Contents (Elt Ideal)) (x13 : (⟨S3, .f32⟩ : BufTy).Contents (Elt Ideal)) :
    Read.val_main_v28 (F := Ideal) x0 x2 x3 x4 x5 x6 x7 x8 x9 x10 x11 x12 x13 = Cert.Mlp.G x0 x2 x3 x4 x5 x6 x7 x8 x9 x10 x11 x12 x13 := by
  funext i
  obtain ⟨n, o, rfl⟩ : ∃ (n : Fin 1000000) (o : Fin 3), i = ix2 n o := ⟨i 0, i 1, eq_ix2 i⟩
  rw [output_at, row5]
  rfl

end Cert.ReferenceIdeal.RefValue

end
-- ==== Proof.lean ====
/-
  The certificate: a six-layer network applied to every node's coordinates, computed by a pallas kernel that walks
  the nodes in 31 column blocks with the features along the rows, against the plain reference that keeps the nodes
  along the rows.

  Over the extended reals both programs compute, for every node, the same six affine layers with the hyperbolic
  tangent between them: the kernel's narrowing of the matrix operands to the 16-bit format is the identity there, its
  transposed products are the reference's sums with the factors commuted, and no step needs the inputs to be
  finite. The kernel's last block reaches past the end of the node axis; what its buffer holds there never reaches
  the columns that are written back, because every step of the body acts on each column by itself. The edge list
  enters neither program's arithmetic.

  The three frames: the word-level kernel's and the idealized kernel's from one statement about the body that holds
  at every float instance (the inputs' buffers are only read), the reference's from its run. The idealization
  rewrote no operation, so there is nothing to preserve. The equivalence: the kernel's run names its result array
  as the network's output, and the reference's result is the same function of the same arguments.
-/
import proofs.«413920_j11433202942399_3_alg».proof.Defs
import proofs.«413920_j11433202942399_3_alg».proof.Proof.Gen.Kernel
import proofs.«413920_j11433202942399_3_alg».proof.Proof.Gen.KernelIdeal
import proofs.«413920_j11433202942399_3_alg».proof.Proof.Gen.ReferenceIdeal
import proofs.«413920_j11433202942399_3_alg».proof.Proof.Gen.Pre_finite_inputs
import proofs.«413920_j11433202942399_3_alg».proof.Proof.KernelForget
import proofs.«413920_j11433202942399_3_alg».proof.Proof.Forget
import proofs.«413920_j11433202942399_3_alg».proof.Proof.Exact
import proofs.«413920_j11433202942399_3_alg».proof.Proof.RefValue
import Idealize.ShloMosaic.Adequacy
import Idealize.ShloMosaic.Init

noncomputable section

namespace Cert.Proof

open Idealize.ShloMosaic Idealize.SL.Sem

/-- The word-level kernel runs to the end without a fault and leaves its arguments unchanged. -/
theorem frame_kernel : Cert.frame_Kernel := fun m ρ _ => Cert.Kernel.Body.frame m ρ

/-- So does the idealized kernel. -/
theorem frame_ideal : Cert.frame_KernelIdeal := fun m ρ _ => Cert.KernelIdeal.Body.frame m ρ

/-- And the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network's output for every node: the
    kernel's run names it, and the reference's result is that function of the arguments. -/
theorem algebraic : Cert.algebraic_KernelIdeal_ReferenceIdeal := by
  intro m ρ m' ρ' _ hagree
  refine ⟨fun c => Cert.KernelIdeal.Exact.Gm m c, Cert.KernelIdeal.Exact.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, h2, h3, h4, h5, h6, h7, h8, h9, h10, h11, h12, h13⟩ := hagree c
  rw [h0, h2, h3, h4, h5, h6, h7, h8, h9, h10, h11, h12, h13]
  exact (Cert.ReferenceIdeal.Read.val_main_v28_eq _ _ _ _ _ _ _ _ _ _ _ _ _).trans
    (Cert.ReferenceIdeal.RefValue.reference_is_G _ _ _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
